-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x40 : Shape := ⟨2, ![524288, 40]⟩
abbrev S524288 : Shape := ⟨1, ![524288]⟩
abbrev S40x40 : Shape := ⟨2, ![40, 40]⟩
abbrev S_ : Shape := ⟨0, ![]⟩

class Facts : Prop where
  bcast_S_S524288x40 : S_.BroadcastsInDim S524288x40 (![] : Fin 0 → Fin S524288x40.rank)
  reducesTo_S524288x40_S_d0_1 : S524288x40.ReducesTo [0, 1] S_
  h_S_ : 0 < S_.numel
  bcast_S_S40x40 : S_.BroadcastsInDim S40x40 (![] : Fin 0 → Fin S40x40.rank)
  reducesTo_S40x40_S_d0_1 : S40x40.ReducesTo [0, 1] S_
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S524288x40 .f32) (main_arg1 : IVec S524288 32) (main_arg2 : FVec F S40x40 .f32) : IVec S_ 1 :=
  let main_v0 : FVec F S524288x40 .f32 := Host.absf main_arg0
  let main_cst : FVec F S_ .f32 := constant S_ .f32 0x7F800000#32
  let main_v1 : FVec F S524288x40 .f32 := broadcastInDim S524288x40 ![] bcast_S_S524288x40 main_cst
  let main_v2 : IVec S524288x40 1 := cmpf .olt main_v0 main_v1
  let main_c : IVec S_ 1 := constantI S_ 1 1#1
  let main_v3 : IVec S_ 1 := (fun x v => Host.reduce IntOp.andi x v reducesTo_S524288x40_S_d0_1 h_S_) main_v2 main_c
  let main_v4 : FVec F S40x40 .f32 := Host.absf main_arg2
  let main_cst_0 : FVec F S_ .f32 := constant S_ .f32 0x7F800000#32
  let main_v5 : FVec F S40x40 .f32 := broadcastInDim S40x40 ![] bcast_S_S40x40 main_cst_0
  let main_v6 : IVec S40x40 1 := cmpf .olt main_v4 main_v5
  let main_c_1 : IVec S_ 1 := constantI S_ 1 1#1
  let main_v7 : IVec S_ 1 := (fun x v => Host.reduce IntOp.andi x v reducesTo_S40x40_S_d0_1 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg1 main_v9
  let main_c_3 : IVec S_ 32 := constantI S_ 32 40#32
  let main_v11 : IVec S524288 32 := broadcastInDim S524288 ![] bcast_S_S524288 main_c_3
  let main_v12 : IVec S524288 1 := cmpi .slt main_arg1 main_v11
  let main_v13 : IVec S524288 1 := andi main_v10 main_v12
  let main_c_4 : IVec S_ 1 := constantI S_ 1 1#1
  let main_v14 : IVec S_ 1 := (fun x v => Host.reduce IntOp.andi x v reducesTo_S524288_S_d0 h_S_) main_v13 main_c_4
  let main_v15 : IVec S_ 1 := andi main_v8 main_v14
  main_v15
-- ==== Kernel.lean ====
abbrev S524288x40 : Shape := ⟨2, ![524288, 40]⟩
abbrev S524288 : Shape := ⟨1, ![524288]⟩
abbrev S40x40 : Shape := ⟨2, ![40, 40]⟩
abbrev S524288x1 : Shape := ⟨2, ![524288, 1]⟩
abbrev S16x128 : Shape := ⟨2, ![16, 128]⟩
abbrev S4096x40 : Shape := ⟨2, ![4096, 40]⟩
abbrev S4096x1 : Shape := ⟨2, ![4096, 1]⟩
abbrev S8x128 : Shape := ⟨2, ![8, 128]⟩
abbrev S4096 : Shape := ⟨1, ![4096]⟩
abbrev S40 : Shape := ⟨1, ![40]⟩
abbrev S1x40 : Shape := ⟨2, ![1, 40]⟩
abbrev S1 : Shape := ⟨1, ![1]⟩
abbrev S1x1 : Shape := ⟨2, ![1, 1]⟩
abbrev S_ : Shape := ⟨0, ![]⟩

abbrev nBuf : Space → Nat
  | .hbm => 19
  | .vmem => 7
  | .smem => 0
  | _ => 0

abbrev bufTy : (tb : Table) → Fin (tcTables nBuf tb) → BufTy
  | .hbm, ⟨0, _⟩ => ⟨S524288x40, .f32⟩
  | .hbm, ⟨1, _⟩ => ⟨S524288, .i32⟩
  | .hbm, ⟨2, _⟩ => ⟨S40x40, .f32⟩
  | .hbm, ⟨3, _⟩ => ⟨S524288x1, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S4096x40, .f32⟩
  | .local _ .vmem, ⟨1, _⟩ => ⟨S4096x40, .f32⟩
  | .local _ .vmem, ⟨2, _⟩ => ⟨S4096x1, .i32⟩
  | .local _ .vmem, ⟨3, _⟩ => ⟨S4096x1, .i32⟩
  | .local _ .vmem, ⟨4, _⟩ => ⟨S40x40, .f32⟩
  | .local _ .vmem, ⟨5, _⟩ => ⟨S8x128, .f32⟩
  | .local _ .vmem, ⟨6, _⟩ => ⟨S8x128, .f32⟩
  | _, _ => ⟨S524288x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S40x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S524288_S524288x1 : S524288.ShapeCasts S524288x1
  inb_S8x128_S8x128_0_0 : ∀ a, (![0, 0] : Fin 2 → Nat) a + S8x128.size a ≤ S8x128.size a
  h_S8x128 : 0 < S8x128.numel
  inb_S4096x40_S4096x40_0_0 : ∀ a, (![0, 0] : Fin 2 → Nat) a + S4096x40.size a ≤ S4096x40.size a
  h_S4096x40 : 0 < S4096x40.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S40x40_S40x40_0_0 : ∀ a, (![0, 0] : Fin 2 → Nat) a + S40x40.size a ≤ S40x40.size a
  h_S40x40 : 0 < S40x40.numel
  reduces_S4096x40_S4096 : S4096x40.Reduces [1] S4096
  shapeCasts_S4096_S4096x1 : S4096.ShapeCasts S4096x1
  reduces_S40x40_S40 : S40x40.Reduces [1] S40
  transposes_S40x40_p1_0_S40x40 : S40x40.Transposes [1, 0] S40x40
  shapeCasts_S40_S1x40 : S40.ShapeCasts S1x40
  broadcasts_S4096x1_S4096x40 : S4096x1.Broadcasts S4096x40
  broadcasts_S1x40_S4096x40 : S1x40.Broadcasts S4096x40
  iota_S4096x40_d1_w32 : S4096x40.Iotas .tc 32 [1]
  natLt_1_32 : 1 < 32
  reduces_S4096x1_S1 : S4096x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S8x128_S1x1_1_0 : ∀ a, (![1, 0] : Fin 2 → Nat) a + S1x1.size a ≤ S8x128.size a
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_1_0 : S16x128.Slices ![1, 0] S1x1
  slices_S16x128_S1x1_9_0 : S16x128.Slices ![9, 0] S1x1
  dot_S4096x40_S40x40_S4096x40_1_0_0_1_n_n_wf : DotDims.WF S4096x40 S40x40 S4096x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x40.size a ≤ S524288x40.size a
  hwx0_0 : ∀ i : grid0.Coords, EltTy.bits .f32 = 32 ∨ (Rect.block (s := S524288x40) S4096x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S524288x1.size a
  hwx0_1 : ∀ i : grid0.Coords, EltTy.bits .i32 = 32 ∨ (Rect.block (s := S524288x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x40.size a ≤ S40x40.size a
  hwx0_2 : ∀ i : grid0.Coords, EltTy.bits .f32 = 32 ∨ (Rect.block (s := S40x40) S40x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S4096x40_S40x40_S4096x40_1_0_0_1_n_n : DotDims S4096x40 S40x40 S4096x40 where
  lhsContracting := [1]
  rhsContracting := [0]
  lhsNonContracting := [0]
  rhsNonContracting := [1]
  lhsBatch := []
  rhsBatch := []
  wf := dot_S4096x40_S40x40_S4096x40_1_0_0_1_n_n_wf

abbrev win0_0 : Pipeline.Window sig grid0 :=
  Pipeline.Window.ofSpec (Memref.whole main_arg0) S4096x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x40 : Shape := ⟨2, ![524288, 40]⟩
abbrev S524288 : Shape := ⟨1, ![524288]⟩
abbrev S40x40 : Shape := ⟨2, ![40, 40]⟩
abbrev S_ : Shape := ⟨0, ![]⟩
abbrev S524288x1 : Shape := ⟨2, ![524288, 1]⟩
abbrev S40 : Shape := ⟨1, ![40]⟩
abbrev S1x40 : Shape := ⟨2, ![1, 40]⟩
abbrev S524288x1x1 : Shape := ⟨3, ![524288, 1, 1]⟩
abbrev S1 : Shape := ⟨1, ![1]⟩
abbrev S1x1x1 : Shape := ⟨3, ![1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S524288x40, .f32⟩
  | .hbm, ⟨1, _⟩ => ⟨S524288, .i32⟩
  | .hbm, ⟨2, _⟩ => ⟨S40x40, .f32⟩
  | .hbm, ⟨3, _⟩ => ⟨S524288x40, .f32⟩
  | .hbm, ⟨4, _⟩ => ⟨S_, .f32⟩
  | .hbm, ⟨5, _⟩ => ⟨S524288, .f32⟩
  | .hbm, ⟨6, _⟩ => ⟨S524288x1, .f32⟩
  | .hbm, ⟨7, _⟩ => ⟨S40x40, .f32⟩
  | .hbm, ⟨8, _⟩ => ⟨S_, .f32⟩
  | .hbm, ⟨9, _⟩ => ⟨S40, .f32⟩
  | .hbm, ⟨10, _⟩ => ⟨S1x40, .f32⟩
  | .hbm, ⟨11, _⟩ => ⟨S524288x40, .f32⟩
  | .hbm, ⟨12, _⟩ => ⟨S524288x40, .f32⟩
  | .hbm, ⟨13, _⟩ => ⟨S524288x40, .f32⟩
  | .hbm, ⟨14, _⟩ => ⟨S40x40, .f32⟩
  | .hbm, ⟨15, _⟩ => ⟨S524288x40, .f32⟩
  | .hbm, ⟨16, _⟩ => ⟨S_, .f32⟩
  | .hbm, ⟨17, _⟩ => ⟨S524288x40, .f32⟩
  | .hbm, ⟨18, _⟩ => ⟨S524288x40, .f32⟩
  | .hbm, ⟨19, _⟩ => ⟨S524288x40, .f32⟩
  | .hbm, ⟨20, _⟩ => ⟨S_, .f32⟩
  | .hbm, ⟨21, _⟩ => ⟨S_, .f32⟩
  | .hbm, ⟨22, _⟩ => ⟨S524288x40, .f32⟩
  | .hbm, ⟨23, _⟩ => ⟨S524288x40, .f32⟩
  | .hbm, ⟨24, _⟩ => ⟨S524288x40, .f32⟩
  | .hbm, ⟨25, _⟩ => ⟨S524288x1, .i32⟩
  | .hbm, ⟨26, _⟩ => ⟨S_, .i32⟩
  | .hbm, ⟨27, _⟩ => ⟨S524288x1, .i32⟩
  | .hbm, ⟨28, _⟩ => ⟨S524288x1, .i1⟩
  | .hbm, ⟨29, _⟩ => ⟨S_, .i32⟩
  | .hbm, ⟨30, _⟩ => ⟨S524288x1, .i32⟩
  | .hbm, ⟨31, _⟩ => ⟨S524288x1, .i32⟩
  | .hbm, ⟨32, _⟩ => ⟨S524288x1, .i32⟩
  | .hbm, ⟨33, _⟩ => ⟨S524288x1x1, .i32⟩
  | .hbm, ⟨34, _⟩ => ⟨S1, .i32⟩
  | .hbm, ⟨35, _⟩ => ⟨S_, .i32⟩
  | .hbm, ⟨36, _⟩ => ⟨S524288x1x1, .i32⟩
  | .hbm, ⟨37, _⟩ => ⟨S524288x1x1, .i1⟩
  | .hbm, ⟨38, _⟩ => ⟨S1x1x1, .i32⟩
  | .hbm, ⟨39, _⟩ => ⟨S524288x1x1, .i32⟩
  | .hbm, ⟨40, _⟩ => ⟨S524288x1x1, .i1⟩
  | .hbm, ⟨41, _⟩ => ⟨S524288x1x1, .i1⟩
  | .hbm, ⟨42, _⟩ => ⟨S_, .i1⟩
  | .hbm, ⟨43, _⟩ => ⟨S524288x1, .i1⟩
  | .hbm, ⟨44, _⟩ => ⟨S524288x1, .f32⟩
  | .hbm, ⟨45, _⟩ => ⟨S_, .f32⟩
  | .hbm, ⟨46, _⟩ => ⟨S524288x1, .f32⟩
  | .hbm, ⟨47, _⟩ => ⟨S524288x1, .f32⟩
  | .hbm, ⟨48, _⟩ => ⟨S524288, .f32⟩
  | .hbm, ⟨49, _⟩ => ⟨S524288x1, .i32⟩
  | .hbm, ⟨50, _⟩ => ⟨S1x40, .i32⟩
  | .hbm, ⟨51, _⟩ => ⟨S524288x40, .i32⟩
  | .hbm, ⟨52, _⟩ => ⟨S524288x40, .i32⟩
  | .hbm, ⟨53, _⟩ => ⟨S524288x40, .i1⟩
  | .hbm, ⟨54, _⟩ => ⟨S_, .f32⟩
  | .hbm, ⟨55, _⟩ => ⟨S_, .f32⟩
  | .hbm, ⟨56, _⟩ => ⟨S524288x40, .f32⟩
  | .hbm, ⟨57, _⟩ => ⟨S524288x40, .f32⟩
  | .hbm, ⟨58, _⟩ => ⟨S_, .f32⟩
  | .hbm, ⟨59, _⟩ => ⟨S524288, .f32⟩
  | .hbm, ⟨60, _⟩ => ⟨S524288, .f32⟩
  | .hbm, ⟨61, _⟩ => ⟨S_, .f32⟩
  | .hbm, ⟨62, _⟩ => ⟨S524288, .f32⟩
  | .hbm, ⟨63, _⟩ => ⟨S524288, .f32⟩
  | .hbm, ⟨64, _⟩ => ⟨S_, .f32⟩
  | .hbm, ⟨65, _⟩ => ⟨S524288, .f32⟩
  | .hbm, ⟨66, _⟩ => ⟨S524288, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S524288, .i1⟩
  | .hbm, ⟨72, _⟩ => ⟨S524288, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S524288x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v17 : Ref sig .tc := ⟨.hbm, 47, rfl⟩
abbrev main_v18 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_v19 : Ref sig .tc := ⟨.hbm, 53, rfl⟩
abbrev main_cst_3 : Ref sig .tc := ⟨.hbm, 54, rfl⟩
abbrev main_call3_v0 : Ref sig .tc := ⟨.hbm, 55, rfl⟩
abbrev main_call3_v1 : Ref sig .tc := ⟨.hbm, 56, rfl⟩
abbrev main_v20 : Ref sig .tc := ⟨.hbm, 57, rfl⟩
abbrev main_cst_4 : Ref sig .tc := ⟨.hbm, 58, rfl⟩
abbrev main_v21 : Ref sig .tc := ⟨.hbm, 59, rfl⟩
abbrev main_v22 : Ref sig .tc := ⟨.hbm, 60, rfl⟩
abbrev main_cst_5 : Ref sig .tc := ⟨.hbm, 61, rfl⟩
abbrev main_v23 : Ref sig .tc := ⟨.hbm, 62, rfl⟩
abbrev main_v24 : Ref sig .tc := ⟨.hbm, 63, rfl⟩
abbrev main_call4_cst : Ref sig .tc := ⟨.hbm, 64, rfl⟩
abbrev main_call4_v0 : Ref sig .tc := ⟨.hbm, 65, rfl⟩
abbrev main_v25 : Ref sig .tc := ⟨.hbm, 66, rfl⟩
abbrev main_cst_6 : Ref sig .tc := ⟨.hbm, 67, rfl⟩
abbrev main_v26 : Ref sig .tc := ⟨.hbm, 68, rfl⟩
abbrev main_cst_7 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_8 : Ref sig .tc := ⟨.hbm, 73, rfl⟩
abbrev main_v30 : Ref sig .tc := ⟨.hbm, 74, rfl⟩
abbrev main_cst_9 : Ref sig .tc := ⟨.hbm, 75, rfl⟩
abbrev main_v31 : Ref sig .tc := ⟨.hbm, 76, rfl⟩

abbrev nD : Nat := 1
abbrev τ : Topo := Topo.v7x

variable {F : FTy → Type} [FloatOps F]

class Facts₀ : Prop where
  reducesTo_S524288x40_S524288_d1 : S524288x40.ReducesTo [1] S524288
  h_S_ : 0 < S_.numel
  bcast_S524288_S524288x1_0 : S524288.BroadcastsInDim S524288x1 (![0] : Fin 1 → Fin S524288x1.rank)
  reducesTo_S40x40_S40_d1 : S40x40.ReducesTo [1] S40
  bcast_S40_S1x40_1 : S40.BroadcastsInDim S1x40 (![1] : Fin 1 → Fin S1x40.rank)
  bcast_S524288x1_S524288x40_0_1 : S524288x1.BroadcastsInDim S524288x40 (![0, 1] : Fin 2 → Fin S524288x40.rank)
  bcast_S1x40_S524288x40_0_1 : S1x40.BroadcastsInDim S524288x40 (![0, 1] : Fin 2 → Fin S524288x40.rank)
  transposes_S40x40_S40x40_1_0 : S40x40.Transposes [1, 0] S40x40
  bcast_S_S524288x40 : S_.BroadcastsInDim S524288x40 (![] : Fin 0 → Fin S524288x40.rank)
  bcast_S_S524288x1 : S_.BroadcastsInDim S524288x1 (![] : Fin 0 → Fin S524288x1.rank)
  shapeCasts_S524288x1_S524288x1x1 : S524288x1.ShapeCasts S524288x1x1
  bcast_S_S524288x1x1 : S_.BroadcastsInDim S524288x1x1 (![] : Fin 0 → Fin S524288x1x1.rank)
  bcast_S1_S1x1x1_2 : S1.BroadcastsInDim S1x1x1 (![2] : Fin 1 → Fin S1x1x1.rank)
  bcast_S1x1x1_S524288x1x1_0_1_2 : S1x1x1.BroadcastsInDim S524288x1x1 (![0, 1, 2] : Fin 3 → Fin S524288x1x1.rank)
  reducesTo_S524288x1x1_S524288x1_d2 : S524288x1x1.ReducesTo [2] S524288x1
  shapeCasts_S524288x1_S524288 : S524288x1.ShapeCasts S524288
  bcast_S_S524288 : S_.BroadcastsInDim S524288 (![] : Fin 0 → Fin S524288.rank)
  reducesTo_S524288_S_d0 : S524288.ReducesTo [0] S_
  dot_S524288x40_S40x40_S524288x40_1_0_0_1_n_n_wf : DotDims.WF S524288x40 S40x40 S524288x40 [1] [0] [0] [1] [] []
  gather_S524288x40_S524288x1x1_S524288x1_n_1_0_0_1_2_11_wf : GatherDims.WF S524288x40 S524288x1x1 S524288x1 [] [1] [0] [1] [0] 2 ![1, 1]

variable [Facts₀]

def dot_S524288x40_S40x40_S524288x40_1_0_0_1_n_n : DotDims S524288x40 S40x40 S524288x40 where
  lhsContracting := [1]
  rhsContracting := [0]
  lhsNonContracting := [0]
  rhsNonContracting := [1]
  lhsBatch := []
  rhsBatch := []
  wf := dot_S524288x40_S40x40_S524288x40_1_0_0_1_n_n_wf
def gather_S524288x40_S524288x1x1_S524288x1_n_1_0_0_1_2_11 : GatherDims S524288x40 S524288x1x1 S524288x1 where
  offsetDims := []
  collapsedSliceDims := [1]
  operandBatchingDims := [0]
  startIndicesBatchingDims := [0]
  startIndexMap := [1]
  indexVectorDim := 2
  sliceSizes := ![1, 1]
  wf := gather_S524288x40_S524288x1x1_S524288x1_n_1_0_0_1_2_11_wf

class Facts : Prop extends Facts₀ where

variable [Facts]
-- ==== Proof.Spec.lean ====
/-
  The triplet-center loss both programs compute, as functions of the argument arrays over the extended reals.

  For a row of features `x` (40 numbers), the 40 class centers `c j` and the row's label word `t`:
    dist j = sqrt (max 1e-12 ((|x|² + |c j|²) - 2·⟨x, c j⟩))   -- distance to center j, its square floored
    ap     = the sum over the classes of dist j where j is the label, 0 elsewhere (the distance to the row's own center)
    an     = the least dist j over the classes other than the label (the label's entry replaced by +∞)
    loss   = max (ap - an) 0,   prec = 1 if an > ap, else 0.
  The two results are the means of loss and prec over the 524288 rows: each sum divided by 524288.
  The float words 2.0, 1e-12 (as f32), +∞ and 524288.0 are kept as the values their patterns denote.
-/
import Idealize.ShloMosaic.PureOps.Ideal
import Idealize.ShloMosaic.Lib.ValueIdx

noncomputable section

namespace Cert.TripletCenter

open Idealize.ShloMosaic Idealize.ShloMosaic.ValueIdx

/-- The factor 2.0 of the cross term. -/
abbrev two : EReal := Ideal.ofBits .f32 0x40000000#32
/-- The floor 1e-12 (as f32) under the square root. -/
abbrev tiny : EReal := Ideal.ofBits .f32 0x2B8CBCCC#32
/-- +∞, the entry that takes the label's class out of the minimum. -/
abbrev inf : EReal := Ideal.ofBits .f32 0x7F800000#32
/-- 524288.0, the number of rows. -/
abbrev nrows : EReal := Ideal.ofBits .f32 0x49000000#32

/-- The squared norm of a 40-vector. -/
def sqn (v : Fin 40 → EReal) : EReal := ∑ k : Fin 40, v k * v k

/-- The inner product of two 40-vectors. -/
def inner (u v : Fin 40 → EReal) : EReal := ∑ k : Fin 40, u k * v k

/-- The distance from the row `x` to the center `c`: the root of the floored `|x|² + |c|² - 2⟨x, c⟩`. -/
def dist (x c : Fin 40 → EReal) : EReal :=
  Ideal.sqrt (max tiny ((sqn x + sqn c) - two * inner x c))

/-- Class `j` is the label `t`: the label word is `j` as a 32-bit word. -/
abbrev isLabel (t : BitVec 32) (j : Fin 40) : Prop := BitVec.ofNat 32 j.val = t

/-- The distance to the row's own center: over the classes, `dist` at the label and `0` elsewhere, summed. -/
def ap (x : Fin 40 → EReal) (c : Fin 40 → Fin 40 → EReal) (t : BitVec 32) : EReal :=
  ∑ j : Fin 40, if isLabel t j then dist x (c j) else 0

/-- The distance to the nearest other center: the least of `dist` with the label's entry at +∞, from +∞. -/
def an (x : Fin 40 → EReal) (c : Fin 40 → Fin 40 → EReal) (t : BitVec 32) : EReal :=
  Finset.univ.fold min inf (fun j : Fin 40 => if isLabel t j then inf else dist x (c j))

/-- The row's hinge loss. -/
def lossRow (x : Fin 40 → EReal) (c : Fin 40 → Fin 40 → EReal) (t : BitVec 32) : EReal :=
  max (ap x c t - an x c t) 0

/-- The row's precision bit as a number: 1 when the nearest other center is farther than the own one. -/
def precRow (x : Fin 40 → EReal) (c : Fin 40 → Fin 40 → EReal) (t : BitVec 32) : EReal :=
  (((Ideal.cmp .ogt (an x c t) (ap x c t)).toNat : ℝ) : EReal)

/-! ## Over the argument arrays -/

/-- The inputs [524288, 40], the labels [524288], the centers [40, 40]. -/
abbrev SX : Shape := ⟨2, ![524288, 40]⟩
abbrev ST : Shape := ⟨1, ![524288]⟩
abbrev SC : Shape := ⟨2, ![40, 40]⟩

/-- Row `r` of the inputs, and center `j`. -/
abbrev xrow (x : SX.Idx → EReal) (r : Fin 524288) : Fin 40 → EReal := fun k => x (ix2 r k)
abbrev crow (cn : SC.Idx → EReal) : Fin 40 → Fin 40 → EReal := fun j k => cn (ix2 j k)

/-- Row `r`'s loss and precision. -/
def lossAt (x : SX.Idx → EReal) (tg : ST.Idx → BitVec 32) (cn : SC.Idx → EReal) (r : Fin 524288) : EReal :=
  lossRow (xrow x r) (crow cn) (tg (ix1 r))
def precAt (x : SX.Idx → EReal) (tg : ST.Idx → BitVec 32) (cn : SC.Idx → EReal) (r : Fin 524288) : EReal :=
  precRow (xrow x r) (crow cn) (tg (ix1 r))

/-- The two results: the means over the rows. -/
def lossMean (x : SX.Idx → EReal) (tg : ST.Idx → BitVec 32) (cn : SC.Idx → EReal) : EReal :=
  Ideal.div (∑ r : Fin 524288, lossAt x tg cn r) nrows
def precMean (x : SX.Idx → EReal) (tg : ST.Idx → BitVec 32) (cn : SC.Idx → EReal) : EReal :=
  Ideal.div (∑ r : Fin 524288, precAt x tg cn r) nrows

/-- Every label is a class: as a signed word it lies in `[0, 40)`. -/
def LabelsInRange (tg : ST.Idx → BitVec 32) : Prop :=
  ∀ r : Fin 524288, 0 ≤ (tg (ix1 r)).toInt ∧ (tg (ix1 r)).toInt < 40

end Cert.TripletCenter

end
-- ==== Proof.RefRow.lean ====
/-
  The reference's two results are the specification's means, when every label is a class: row by row the gathered
  distance is the masked sum `ap`, the masked minimum is `an`, and the two reductions over the rows are the sums.
-/
import proofs.«422907_j61057255080333_3_alg».proof.Proof.RefRead
import proofs.«422907_j61057255080333_3_alg».proof.Proof.Spec
import Idealize.ShloMosaic.Lib.ValueIdx
import Idealize.ShloMosaic.Lib.ValueIdxRank1
import Idealize.ShloMosaic.Lib.ValueLayout
import Idealize.ShloMosaic.Lib.Affine
import Idealize.ShloMosaic.Lib.Pipeline.Value
import Idealize.ShloMosaic.PureOps.Reduce
import Idealize.ShloMosaic.PureOps.Ideal.Laws

noncomputable section

namespace Cert.ReferenceIdeal.RowValue

open Idealize.ShloMosaic Idealize.ShloMosaic.TcCoe Idealize.ShloMosaic.ValueIdx
open Cert.ReferenceIdeal Cert.ReferenceIdeal.Gen Cert.ReferenceIdeal.ReadP Cert.TripletCenter

/-! ## The gather of `take_along_axis`, read at a row -/

/-- The dimension numbers of `take_along_axis` along axis 1 of an `[R, C]` operand at an `[R, 1, 1]` array of start
    indices: axis 0 is a batching axis on both sides, axis 1 is collapsed and indexed. -/
private abbrev alongDims (R C : Nat)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Row `r` of the result reads row `r` of the operand at the column the row's start index names, read signed and
    clamped into `[0, C − 1]`. -/
private theorem gather_along_apply {α : Type} {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r (0 : Fin 1))
      = x (ix2 r ⟨min (idx (ix3 r (0 : Fin 1) (0 : Fin 1))).toInt.toNat (C - 1), by omega⟩) := by
  unfold Host.gather
  refine congrArg x ?_
  funext a
  refine Fin.ext ?_
  match a with
  | ⟨0, _⟩ =>
    -- the batching axis: no start, no offset, the batch coordinate is the row
    show (alongDims R C wf).start (ix2 r (0 : Fin 1)) idx 0 + (alongDims R C wf).batchCoord (ix2 r (0 : Fin 1)) 0
        + (alongDims R C wf).offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    -- the collapsed, indexed axis: the clamped start alone, read at the row's start index
    show (alongDims R C wf).start (ix2 r (0 : Fin 1)) idx 1 + (alongDims R C wf).batchCoord (ix2 r (0 : Fin 1)) 1
        + (alongDims R C wf).offCoord (ix2 r (0 : Fin 1)) 1 = min (idx (ix3 r (0 : Fin 1) (0 : Fin 1))).toInt.toNat (C - 1)
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r (0 : Fin 1)) ⟨List.idxOf (1 : Fin 2) (alongDims R C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## A label in range is a class -/

/-- A label word that reads signed into `[0, 40)` is the word of a class. -/
private theorem exists_label (t : BitVec 32) (h0 : 0 ≤ t.toInt) (h1 : t.toInt < 40) :
    ∃ j0 : Fin 40, isLabel t j0 ∧ t.toInt = (j0.val : Int) := by
  have hn : t.toInt = (t.toNat : Int) := by
    have e := BitVec.toInt_eq_toNat_cond t
    have hlt := t.isLt
    split at e <;> omega
  have hlt : t.toNat < 40 := by omega
  exact ⟨⟨t.toNat, hlt⟩, BitVec.eq_of_toNat_eq (by rw [BitVec.toNat_ofNat]; exact Nat.mod_eq_of_lt t.isLt), hn⟩

/-- The class of a label is unique. -/
private theorem isLabel_iff (t : BitVec 32) (j0 j : Fin 40) (h : isLabel t j0) : isLabel t j ↔ j = j0 := by
  constructor
  · intro hj
    have e : BitVec.ofNat 32 j.val = BitVec.ofNat 32 j0.val := hj.trans h.symm
    have e' := congrArg BitVec.toNat e
    simp only [BitVec.toNat_ofNat] at e'
    have := j.isLt; have := j0.isLt
    exact Fin.ext (by omega)
  · rintro rfl; exact h

/-- The masked sum over the classes has one term: the distance to the label's center. -/
private theorem ap_eq_dist (x : Fin 40 → EReal) (c : Fin 40 → Fin 40 → EReal) (t : BitVec 32) (j0 : Fin 40) (h : isLabel t j0) :
    ap x c t = dist x (c j0) := by
  unfold ap
  rw [Finset.sum_eq_single j0 (fun j _ hne => if_neg (fun hj => hne ((isLabel_iff t j0 j h).mp hj)))
    (fun hn => absurd (Finset.mem_univ j0) hn), if_pos h]

/-! ## The conjunction over a set of one-bit words that are all one -/

/-- A fold by `and` from 1 over words that are all 1 is 1. -/
private theorem fold_andi_one {ι : Type} [DecidableEq ι] (s : Finset ι) (g : ι → BitVec 1) (hg : ∀ k ∈ s, g k = 1#1) :
    s.fold IntOp.andi 1#1 g = 1#1 := by
  induction s using Finset.induction_on with
  | empty => rfl
  | insert a s ha ih =>
    rw [Finset.fold_insert ha, hg a (Finset.mem_insert_self _ _), ih (fun k hk => hg k (Finset.mem_insert_of_mem hk))]
    rfl

/-! ## The stages, row by row -/

/-- The distance matrix: entry `(r, j)` is the distance from row `r` to center `j`. -/
private theorem dist_row (x0 : (⟨S524288x40, .f32⟩ : BufTy).Contents (Elt Ideal)) (x2 : (⟨S40x40, .f32⟩ : BufTy).Contents (Elt Ideal))
    (r : Fin 524288) (j : Fin 40) :
    val_main_v15 (F := Ideal) x0 x2 (ix2 r j) = dist (xrow x0 r) (crow x2 j) := by
  have e1 : ∀ k : Fin 40, idx_main_v1 (idx_main_v2 (idx_main_v6 (ix2 r j))) k = ix2 r k := fun k =>
    funext fun a => Fin.ext (by match a with | ⟨0, _⟩ => rfl | ⟨1, _⟩ => rfl)
  have e2 : ∀ k : Fin 40, idx_main_v4 (idx_main_v5 (idx_main_v7 (ix2 r j))) k = ix2 j k := fun k =>
    funext fun a => Fin.ext (by match a with | ⟨0, _⟩ => rfl | ⟨1, _⟩ => rfl)
  have e3 : ∀ k : Fin 40, lidx_main_v10 (ix2 r j) k = ix2 r k := fun k =>
    funext fun a => Fin.ext (by match a with | ⟨0, _⟩ => rfl | ⟨1, _⟩ => rfl)
  have e4 : ∀ k : Fin 40, idx_main_v9 (ridx_main_v10 (ix2 r j) k) = ix2 j k := fun k =>
    funext fun a => Fin.ext (by match a with | ⟨0, _⟩ => rfl | ⟨1, _⟩ => rfl)
  rw [val_main_v15_apply, val_main_v14_apply, val_main_call0_v1_apply, val_main_call0_v0_apply, val_main_cst_2_apply,
    val_main_v13_apply, val_main_v8_apply, val_main_v6_apply, val_main_v2_apply, val_main_v1_apply, val_main_cst_apply,
    val_main_v7_apply, val_main_v5_apply, val_main_v4_apply, val_main_cst_0_apply,
    val_main_v12_apply, val_main_v11_apply, val_main_cst_1_apply, val_main_v10_apply]
  simp only [val_main_v0_apply, val_main_v3_apply, val_main_v9_apply, e1, e2, e3, e4, Ideal.hostUnary_sqrt_def,
    Ideal.maximumf_def, Ideal.subf_def, Ideal.addf_def, Ideal.mulf_def, Ideal.ofBits_def, Ideal.ofBits_zero_f32, zero_add]
  rfl

/-- The one-hot compare: the bit at `(r, j)` is set exactly when class `j` is row `r`'s label. -/
private theorem onehot_row (x1 : (⟨S524288, .i32⟩ : BufTy).Contents (Elt Ideal)) (r : Fin 524288) (j : Fin 40) :
    val_main_v19 (F := Ideal) x1 (ix2 r j) = 1#1 ↔ isLabel (x1 (ix1 r)) j := by
  have e1 : idx_main_call2_v0 (idx_main_call2_v2 (ix2 r j)) = ix1 r :=
    funext fun a => Fin.ext (by match a with | ⟨0, _⟩ => rfl)
  rw [val_main_v19_apply, val_main_call2_v2_apply, val_main_call2_v0_apply, val_main_call2_v3_apply,
    val_main_call2_v1_apply, IntOp.cmpi_eq, e1]
  exact eq_comm

/-- The masked minimum over the classes, from +∞: the distance to the nearest other center. -/
private theorem an_row (x0 : (⟨S524288x40, .f32⟩ : BufTy).Contents (Elt Ideal)) (x1 : (⟨S524288, .i32⟩ : BufTy).Contents (Elt Ideal))
    (x2 : (⟨S40x40, .f32⟩ : BufTy).Contents (Elt Ideal)) (r : Fin 524288) :
    val_main_v21 (F := Ideal) x0 x1 x2 (ix1 r) = an (xrow x0 r) (crow x2) (x1 (ix1 r)) := by
  have hk : ∀ k : Fin 40, val_main_v20 (F := Ideal) x0 x1 x2 (ix2 r k)
      = if isLabel (x1 (ix1 r)) k then inf else dist (xrow x0 r) (crow x2 k) := by
    intro k
    rw [val_main_v20_apply, val_main_call3_v1_apply, val_main_call3_v0_apply, val_main_cst_3_apply, dist_row]
    by_cases hl : isLabel (x1 (ix1 r)) k
    · rw [(onehot_row x1 r k).mpr hl, select_one, if_pos hl]; rfl
    · rw [eq_zero_of_ne_one (fun hb => hl ((onehot_row x1 r k).mp hb)), select_zero, if_neg hl]
  unfold val_main_v21
  generalize val_main_v20 (F := Ideal) x0 x1 x2 = y at hk ⊢
  rw [Host.reduce_eq_fold_single _ y _ reducesTo_S524288x40_S524288_d1 (by decide) h_S_ (ix1 r), val_main_cst_4_apply]
  unfold an
  exact Finset.fold_congr fun k _ =>
    (congrArg y (funext fun a => Fin.ext (by match a with | ⟨0, _⟩ => rfl | ⟨1, _⟩ => rfl))).trans (hk k)

/-- Under the range hypothesis the wrapped start index of row `r` is the label itself: no label is negative. -/
private theorem start_row (x1 : (⟨S524288, .i32⟩ : BufTy).Contents (Elt Ideal)) (h : LabelsInRange x1) (r : Fin 524288) :
    val_main_call1_v5 (F := Ideal) x1 (ix3 r (0 : Fin 1) (0 : Fin 1)) = x1 (ix1 r) := by
  have e1 : idx_main_v16 (idx_main_call1_v5 (ix3 r (0 : Fin 1) (0 : Fin 1))) = ix1 r :=
    funext fun a => Fin.ext (by
      match a with
      | ⟨0, _⟩ => exact (by omega : ((r.val * 1 + 0) * 1 + 0) / 1 = r.val))
  have z0 : (0#32 : BitVec 32).toInt = 0 := by decide
  have hz : IntOp.cmpi .slt (x1 (ix1 r)) 0#32 = 0#1 :=
    eq_zero_of_ne_one fun hc => by
      rw [IntOp.cmpi_slt, z0] at hc
      have := (h r).1
      omega
  rw [val_main_call1_v5_apply, val_main_call1_v4_apply, val_main_call1_v1_apply, val_main_v16_apply,
    val_main_call1_v0_apply, val_main_call1_c_apply, e1, hz, select_zero]

/-- The in-range test of row `r`'s start index holds: the label is in `[0, 39]`. -/
private theorem inrange_row (x1 : (⟨S524288, .i32⟩ : BufTy).Contents (Elt Ideal)) (h : LabelsInRange x1) (r : Fin 524288) :
    val_main_call1_v12 (F := Ideal) x1 (ix2 r (0 : Fin 1)) = 1#1 := by
  have hk : val_main_call1_v11 (F := Ideal) x1 (ix3 r (0 : Fin 1) (0 : Fin 1)) = 1#1 := by
    have z0 : (0#32 : BitVec 32).toInt = 0 := by decide
    have z39 : (39#32 : BitVec 32).toInt = 39 := by decide
    rw [val_main_call1_v11_apply, val_main_call1_v7_apply, val_main_call1_v10_apply, start_row x1 h r,
      val_main_call1_v6_apply, val_main_call1_c_2_apply, val_main_call1_v9_apply, val_main_call1_v8_apply,
      val_main_call1_c_1_apply, IntOp.andi_eq_one, IntOp.cmpi_sge, IntOp.cmpi_sle, z0, z39]
    have := h r
    omega
  unfold val_main_call1_v12
  generalize val_main_call1_v11 (F := Ideal) x1 = y at hk ⊢
  rw [Host.reduce_eq_fold_single _ y _ reducesTo_S524288x1x1_S524288x1_d2 (by decide) h_S_ (ix2 r (0 : Fin 1)),
    val_main_call1_c_3_apply]
  refine fold_andi_one _ _ fun k _ => ?_
  have hk0 : k.val < 1 := k.isLt
  exact (congrArg y (funext fun a => Fin.ext (by
    match a with
    | ⟨0, _⟩ => rfl
    | ⟨1, _⟩ => rfl
    | ⟨2, _⟩ => exact (by omega : k.val = 0)))).trans hk

/-- The gather of `take_along_axis` at row `r`: the distance matrix at `(r, label)`. -/
private theorem gather_row (x0 : (⟨S524288x40, .f32⟩ : BufTy).Contents (Elt Ideal)) (x1 : (⟨S524288, .i32⟩ : BufTy).Contents (Elt Ideal))
    (x2 : (⟨S40x40, .f32⟩ : BufTy).Contents (Elt Ideal)) (h : LabelsInRange x1) (r : Fin 524288) (j0 : Fin 40)
    (hj : (x1 (ix1 r)).toInt = (j0.val : Int)) :
    val_main_call1_v13 (F := Ideal) x0 x1 x2 (ix2 r (0 : Fin 1)) = val_main_v15 (F := Ideal) x0 x2 (ix2 r j0) := by
  have h5 := start_row x1 h r
  unfold val_main_call1_v13
  generalize val_main_v15 (F := Ideal) x0 x2 = y
  generalize val_main_call1_v5 (F := Ideal) x1 = idx at h5 ⊢
  have e : gather_S524288x40_S524288x1x1_S524288x1_n_1_0_0_1_2_11
      = alongDims 524288 40 gather_S524288x40_S524288x1x1_S524288x1_n_1_0_0_1_2_11_wf := rfl
  rw [e, gather_along_apply (by decide) _ y idx r]
  refine congrArg y (funext fun a => Fin.ext ?_)
  match a with
  | ⟨0, _⟩ => rfl
  | ⟨1, _⟩ =>
    show min (idx (ix3 r (0 : Fin 1) (0 : Fin 1))).toInt.toNat (40 - 1) = j0.val
    rw [h5]
    have := j0.isLt
    omega

/-- The gathered value, reshaped: the distance to the row's own center. -/
private theorem ap_row (x0 : (⟨S524288x40, .f32⟩ : BufTy).Contents (Elt Ideal)) (x1 : (⟨S524288, .i32⟩ : BufTy).Contents (Elt Ideal))
    (x2 : (⟨S40x40, .f32⟩ : BufTy).Contents (Elt Ideal)) (h : LabelsInRange x1) (r : Fin 524288) :
    val_main_v18 (F := Ideal) x0 x1 x2 (ix1 r) = ap (xrow x0 r) (crow x2) (x1 (ix1 r)) := by
  obtain ⟨j0, hl, hj⟩ := exists_label (x1 (ix1 r)) (h r).1 (h r).2
  have e1 : idx_main_v18 (ix1 r) = ix2 r (0 : Fin 1) :=
    funext fun a => Fin.ext (by
      match a with
      | ⟨0, _⟩ => exact Nat.div_one r.val
      | ⟨1, _⟩ => rfl)
  rw [val_main_v18_apply, e1, val_main_v17_apply, inrange_row x1 h r, select_one, gather_row x0 x1 x2 h r j0 hj,
    dist_row, ap_eq_dist _ _ _ j0 hl]

/-- The row's hinge loss. -/
private theorem loss_row (x0 : (⟨S524288x40, .f32⟩ : BufTy).Contents (Elt Ideal)) (x1 : (⟨S524288, .i32⟩ : BufTy).Contents (Elt Ideal))
    (x2 : (⟨S40x40, .f32⟩ : BufTy).Contents (Elt Ideal)) (h : LabelsInRange x1) (r : Fin 524288) :
    val_main_v25 (F := Ideal) x0 x1 x2 (ix1 r) = lossAt x0 x1 x2 r := by
  rw [val_main_v25_apply, val_main_v24_apply, val_main_v22_apply, ap_row x0 x1 x2 h r, an_row, val_main_v23_apply,
    val_main_cst_5_apply, val_main_call4_v0_apply, val_main_call4_cst_apply]
  simp only [Ideal.maximumf_def, Ideal.addf_def, Ideal.subf_def, Ideal.ofBits_def, Ideal.ofBits_zero_f32, add_zero]
  rfl

/-- The row's precision bit, as a number. -/
private theorem prec_row (x0 : (⟨S524288x40, .f32⟩ : BufTy).Contents (Elt Ideal)) (x1 : (⟨S524288, .i32⟩ : BufTy).Contents (Elt Ideal))
    (x2 : (⟨S40x40, .f32⟩ : BufTy).Contents (Elt Ideal)) (h : LabelsInRange x1) (r : Fin 524288) :
    val_main_v29 (F := Ideal) x0 x1 x2 (ix1 r) = precAt x0 x1 x2 r := by
  rw [val_main_v29_apply, val_main_v28_apply, an_row, ap_row x0 x1 x2 h r]
  rfl

/-! ## The two means -/

/-- The first result: the mean hinge loss. -/
theorem ref_loss (x0 : (⟨S524288x40, .f32⟩ : BufTy).Contents (Elt Ideal)) (x1 : (⟨S524288, .i32⟩ : BufTy).Contents (Elt Ideal))
    (x2 : (⟨S40x40, .f32⟩ : BufTy).Contents (Elt Ideal)) (h : LabelsInRange x1) :
    val_main_v27 (F := Ideal) x0 x1 x2 = fun _ => lossMean x0 x1 x2 := by
  funext i
  rw [val_main_v27_apply, val_main_v26_apply, val_main_cst_6_apply, val_main_cst_7_apply]
  simp only [Ideal.hostDivf_def, Ideal.ofBits_def, Ideal.ofBits_zero_f32, zero_add]
  unfold lossMean
  refine congrArg (fun s => Ideal.div s nrows) ?_
  exact (Equiv.sum_comp (idxEquiv1 (n := 524288)).symm _).symm.trans
    (Finset.sum_congr rfl fun r _ => loss_row x0 x1 x2 h r)

/-- The second result: the mean precision. -/
theorem ref_prec (x0 : (⟨S524288x40, .f32⟩ : BufTy).Contents (Elt Ideal)) (x1 : (⟨S524288, .i32⟩ : BufTy).Contents (Elt Ideal))
    (x2 : (⟨S40x40, .f32⟩ : BufTy).Contents (Elt Ideal)) (h : LabelsInRange x1) :
    val_main_v31 (F := Ideal) x0 x1 x2 = fun _ => precMean x0 x1 x2 := by
  funext i
  rw [val_main_v31_apply, val_main_v30_apply, val_main_cst_8_apply, val_main_cst_9_apply]
  simp only [Ideal.hostDivf_def, Ideal.ofBits_def, Ideal.ofBits_zero_f32, zero_add]
  unfold precMean
  refine congrArg (fun s => Ideal.div s nrows) ?_
  exact (Equiv.sum_comp (idxEquiv1 (n := 524288)).symm _).symm.trans
    (Finset.sum_congr rfl fun r _ => prec_row x0 x1 x2 h r)

end Cert.ReferenceIdeal.RowValue

end
-- ==== Proof.PreRange.lean ====
/-
  The precondition's last conjunct, read: every label, as a signed word, lies in [0, 40).
-/
import proofs.«422907_j61057255080333_3_alg».proof.Pre_finite_inputs
import proofs.«422907_j61057255080333_3_alg».proof.Proof.Gen.Pre_finite_inputs
import proofs.«422907_j61057255080333_3_alg».proof.Proof.Spec
import Idealize.ShloMosaic.Lib.ValueIdx
import Idealize.ShloMosaic.Lib.ReduceAll
import Idealize.ShloMosaic.Lib.StableHlo.Predicate

noncomputable section

namespace Cert.TripletCenter

open Idealize.ShloMosaic Idealize.ShloMosaic.ValueIdx

/-- A rank-0 array has one index. -/
private instance : Subsingleton Cert.Pre_finite_inputs.S_.Idx := ⟨fun a b => funext fun d => d.elim0⟩

/-- From the precondition (all ones) to the labels' range. -/
theorem labels_of_pre (x0 : FVec Ideal Cert.Pre_finite_inputs.S524288x40 .f32) (x1 : IVec Cert.Pre_finite_inputs.S524288 32)
    (x2 : FVec Ideal Cert.Pre_finite_inputs.S40x40 .f32)
    (h : Cert.Pre_finite_inputs.fn (F := Ideal) x0 x1 x2 = fun _ => 1#1) : LabelsInRange x1 := by
  intro r
  -- the rank-0 result at its one index: a conjunction of three bits, the last the conjunction over all rows of the labels' range test
  have e := congrFun h ValueIdx.ix0
  dsimp only [Cert.Pre_finite_inputs.fn] at e
  obtain ⟨-, e3⟩ := IntOp.andi_eq_one.1 e
  -- a reduction by `and` that came out 1 met a 1 at every row
  have e4 := Host.reduce_andi_all _ _ _ _ _ e3 (ix1 r)
  obtain ⟨h0, h40⟩ := IntOp.andi_eq_one.1 e4
  -- the two compares at row `r`, against the broadcast words 0 and 40, as signed inequalities
  simp only [cmpi, broadcastInDim, constantI] at h0 h40
  rw [IntOp.cmpi_sge] at h0
  rw [IntOp.cmpi_slt] at h40
  have z0 : (0#32 : BitVec 32).toInt = 0 := by decide
  have z40 : (40#32 : BitVec 32).toInt = 40 := by decide
  rw [z0] at h0
  rw [z40] at h40
  exact ⟨h0, h40⟩

end Cert.TripletCenter

end
-- ==== Proof.KPieces.lean ====
/-
  What the kernel body leaves in its output block [8,128], case by case, as one function of the block index.
  At the first step of a core's run the block is zeroed, then entry (0,0) gets the tile's loss sum added and entry
  (1,0) the tile's count added; at a later step the same two entries are added to and every other entry is kept.
-/
import proofs.«422907_j61057255080333_3_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The float zero the reset stores. -/
abbrev zf : F .f32 := FloatOps.ofBits (F := F) .f32 0x00000000#32

/-- Entry (0,0) after a step that found `old` there: the first stored sum over the tile. -/
abbrev e00 (x0 : Vec F S4096x40 .f32) (x1 : Vec F S4096x1 .i32) (x2 : Vec F S40x40 .f32) (old : F .f32) : F .f32 :=
  k0_pay1 (k0_pay8 x0 x1 x2) (zf (F := F)) (fun _ => old) (ix2 0 0)
/-- Entry (1,0) likewise: the second stored sum. -/
abbrev e10 (x0 : Vec F S4096x40 .f32) (x1 : Vec F S4096x1 .i32) (x2 : Vec F S40x40 .f32) (old : F .f32) : F .f32 :=
  k0_pay2 (k0_pay6 x0 x1 x2) (k0_pay7 x0 x1 x2) (fun _ => old) (ix2 0 0)

/-- A load of any box after the reset alone reads zeros. -/
theorem readCov_reset (v : View sig .tc .vmem S8x128 .f32) (B : LoadRect S8x128) :
    v.readCov [(⟨Rect.unit ![0, 0] S8x128.size inb_S8x128_S8x128_0_0, k0_pay3 (F := F)⟩ : View.Piece (Elt F) S8x128 .f32)] B
      = fun _ => zf (F := F) := by
  rw [View.readCov_eq_canon', View.canon_unit_zero hz]
  rfl

/-- The store at (0,0) does not reach the load at (1,0). -/
theorem readCov_skip00 (v : View sig .tc .vmem S8x128 .f32) (w : S1x1.Idx → Elt F .f32) (L : List (View.Piece (Elt F) S8x128 .f32)) :
    v.readCov ((⟨Rect.unit ![0, 0] ![1, 1] inb_S8x128_S1x1_0_0, w⟩ : View.Piece (Elt F) S8x128 .f32) :: L)
        (Rect.unit ![1, 0] ![1, 1] inb_S8x128_S1x1_1_0).toLoadRect
      = v.readCov L (Rect.unit ![1, 0] ![1, 1] inb_S8x128_S1x1_1_0).toLoadRect :=
  View.readCov_cons_of_disjoint v _ L _ (Rect.unit_disjoint (inb := inb_S8x128_S1x1_0_0) (inb' := inb_S8x128_S1x1_1_0) (0 : Fin 2) (Or.inl (by decide)))

/-- CASE A (a core's first step): zero everywhere but the two accumulated entries. -/
theorem out_A (c : Dev nD) (i : grid0.Coords) (a2 : Memref sig .tc .vmem S4096x40 .f32) (h2 : a2.IsWhole) (a3 : Memref sig .tc .vmem S4096x1 .i32) (h3 : a3.IsWhole) (a4 : Memref sig .tc .vmem S40x40 .f32) (h4 : a4.IsWhole) (a5 : Memref sig .tc .vmem S8x128 .f32) (h5 : a5.IsWhole) (hc : cond0_0 i)
    (x0 : Vec F S4096x40 .f32) (x1 : Vec F S4096x1 .i32) (x2 : Vec F S40x40 .f32) (y : S8x128.Idx) :
    out0_A_3 c i a2 h2 a3 h3 a4 h4 a5 h5 hc x0 x1 x2 y =
      if (y 0).val = 1 ∧ (y 1).val = 0 then e10 x0 x1 x2 (zf (F := F))
      else if (y 0).val = 0 ∧ (y 1).val = 0 then e00 x0 x1 x2 (zf (F := F))
      else zf (F := F) := by
  unfold out0_A_3
  unfold kernelRun0_A
  dsimp only
  sl_unfold_words
  rw [readCov_skip00, readCov_reset, readCov_reset]
  simp only [View.readAt_eq_ld, h2.read_unread, h3.read_unread, h4.read_unread,
    View.ld_unit_zero (S := S4096x40) hz, View.ld_unit_zero (S := S4096x1) hz, View.ld_unit_zero (S := S40x40) hz]
  by_cases h10 : (y 0).val = 1 ∧ (y 1).val = 0
  · rw [if_pos h10]
    exact View.read_writes_cons_unit_of_mem (Val := Elt F) (off := ![1, 0]) (off' := ![1, 0]) (size := ![1, 1]) VO0_3 VO0_3.junk inb_S8x128_S1x1_1_0 _ _ y (ix2 0 0) rfl
      (by
        have e0 : ((ix2 (0 : Fin 1) (0 : Fin 1) : S1x1.Idx) 0).val = 0 := rfl
        have e1 : ((ix2 (0 : Fin 1) (0 : Fin 1) : S1x1.Idx) 1).val = 0 := rfl
        refine Fin.forall_fin_two.mpr ⟨?_, ?_⟩
        · first
            | exact h10.1
            | (rw [e0]; exact h10.1)
            | (simp; omega)
        · first
            | exact h10.2
            | (rw [e1]; exact h10.2)
            | (simp; omega))
  · rw [if_neg h10]
    have hskip10 : ∃ a : Fin 2, (y a).val < (![1, 0] : Fin 2 → Nat) a ∨ (![1, 0] : Fin 2 → Nat) a + (![1, 1] : Fin 2 → Nat) a ≤ (y a).val := by
      by_cases h : (y 0).val = 1
      · exact ⟨1, Or.inr (by show 0 + 1 ≤ (y 1).val; omega)⟩
      · exact ⟨0, by show (y 0).val < 1 ∨ 1 + 1 ≤ (y 0).val; omega⟩
    obtain ⟨a10, ha10⟩ := hskip10
    rw [View.read_writes_cons_unit_of_not_mem (off' := ![1, 0]) VO0_3 _ _ _ _ y rfl a10 ha10]
    by_cases h00 : (y 0).val = 0 ∧ (y 1).val = 0
    · rw [if_pos h00]
      exact View.read_writes_cons_unit_of_mem (Val := Elt F) (off := ![0, 0]) (off' := ![0, 0]) (size := ![1, 1]) VO0_3 VO0_3.junk inb_S8x128_S1x1_0_0 _ _ y (ix2 0 0) rfl
        (by
        have e0 : ((ix2 (0 : Fin 1) (0 : Fin 1) : S1x1.Idx) 0).val = 0 := rfl
        have e1 : ((ix2 (0 : Fin 1) (0 : Fin 1) : S1x1.Idx) 1).val = 0 := rfl
        refine Fin.forall_fin_two.mpr ⟨?_, ?_⟩
        · first
            | exact h00.1
            | (rw [e0]; exact h00.1)
            | (simp; omega)
        · first
            | exact h00.2
            | (rw [e1]; exact h00.2)
            | (simp; omega))
    · rw [if_neg h00]
      have hskip00 : ∃ a : Fin 2, (y a).val < (![0, 0] : Fin 2 → Nat) a ∨ (![0, 0] : Fin 2 → Nat) a + (![1, 1] : Fin 2 → Nat) a ≤ (y a).val := by
        by_cases h : (y 0).val = 0
        · exact ⟨1, Or.inr (by show 0 + 1 ≤ (y 1).val; omega)⟩
        · exact ⟨0, Or.inr (by show 0 + 1 ≤ (y 0).val; omega)⟩
      obtain ⟨a00, ha00⟩ := hskip00
      rw [View.read_writes_cons_unit_of_not_mem (off' := ![0, 0]) VO0_3 _ _ _ _ y rfl a00 ha00]
      exact View.read_writes_cons_unit_of_mem (off' := ![0, 0]) VO0_3 _ _ _ _ y y rfl
        (Fin.forall_fin_two.mpr ⟨by show (y 0).val = 0 + (y 0).val; omega, by show (y 1).val = 0 + (y 1).val; omega⟩)

/-- CASE B (a later step): the two entries added to, everything else as the step before left it. -/
theorem out_B (c : Dev nD) (i : grid0.Coords) (a2 : Memref sig .tc .vmem S4096x40 .f32) (h2 : a2.IsWhole) (a3 : Memref sig .tc .vmem S4096x1 .i32) (h3 : a3.IsWhole) (a4 : Memref sig .tc .vmem S40x40 .f32) (h4 : a4.IsWhole) (a5 : Memref sig .tc .vmem S8x128 .f32) (h5 : a5.IsWhole) (hc : ¬cond0_0 i)
    (x0 : Vec F S4096x40 .f32) (x1 : Vec F S4096x1 .i32) (x2 : Vec F S40x40 .f32) (xo : Vec F S8x128 .f32) (y : S8x128.Idx) :
    out0_B_3 c i a2 h2 a3 h3 a4 h4 a5 h5 hc x0 x1 x2 xo y =
      if (y 0).val = 1 ∧ (y 1).val = 0 then e10 x0 x1 x2 (xo (ix2 1 0))
      else if (y 0).val = 0 ∧ (y 1).val = 0 then e00 x0 x1 x2 (xo (ix2 0 0))
      else xo y := by
  unfold out0_B_3
  unfold kernelRun0_B
  dsimp only
  sl_unfold_words
  simp only [View.readAt_eq_ld, h2.read_unread, h3.read_unread, h4.read_unread, h5.read_unread,
    View.ld_unit_zero (S := S4096x40) hz, View.ld_unit_zero (S := S4096x1) hz, View.ld_unit_zero (S := S40x40) hz]
  have ld10 : View.ld xo (Rect.unit ![1, 0] ![1, 1] inb_S8x128_S1x1_1_0) = fun _ => xo (ix2 1 0) := by
    funext j
    show xo _ = xo _
    congr 1
    funext a
    apply Fin.ext
    have j0 : (j 0).val < 1 := (j 0).isLt
    have j1 : (j 1).val < 1 := (j 1).isLt
    match a with
    | ⟨0, _⟩ => show 1 + 1 * (j 0).val = 1; omega
    | ⟨1, _⟩ => show 0 + 1 * (j 1).val = 0; omega
  have ld00 : View.ld xo (Rect.unit ![0, 0] ![1, 1] inb_S8x128_S1x1_0_0) = fun _ => xo (ix2 0 0) := by
    funext j
    show xo _ = xo _
    congr 1
    funext a
    apply Fin.ext
    have j0 : (j 0).val < 1 := (j 0).isLt
    have j1 : (j 1).val < 1 := (j 1).isLt
    match a with
    | ⟨0, _⟩ => show 0 + 1 * (j 0).val = 0; omega
    | ⟨1, _⟩ => show 0 + 1 * (j 1).val = 0; omega
  rw [ld10, ld00]
  by_cases h10 : (y 0).val = 1 ∧ (y 1).val = 0
  · rw [if_pos h10]
    exact View.read_writes_cons_unit_of_mem (off' := ![1, 0]) a5.view _ _ _ _ y (ix2 0 0) rfl
      (by
        have e0 : ((ix2 (0 : Fin 1) (0 : Fin 1) : S1x1.Idx) 0).val = 0 := rfl
        have e1 : ((ix2 (0 : Fin 1) (0 : Fin 1) : S1x1.Idx) 1).val = 0 := rfl
        refine Fin.forall_fin_two.mpr ⟨?_, ?_⟩
        · first
            | exact h10.1
            | (rw [e0]; exact h10.1)
            | (simp; omega)
        · first
            | exact h10.2
            | (rw [e1]; exact h10.2)
            | (simp; omega))
  · rw [if_neg h10]
    have hskip10 : ∃ a : Fin 2, (y a).val < (![1, 0] : Fin 2 → Nat) a ∨ (![1, 0] : Fin 2 → Nat) a + (![1, 1] : Fin 2 → Nat) a ≤ (y a).val := by
      by_cases h : (y 0).val = 1
      · exact ⟨1, Or.inr (by show 0 + 1 ≤ (y 1).val; omega)⟩
      · exact ⟨0, by show (y 0).val < 1 ∨ 1 + 1 ≤ (y 0).val; omega⟩
    obtain ⟨a10, ha10⟩ := hskip10
    rw [View.read_writes_cons_unit_of_not_mem (off' := ![1, 0]) a5.view _ _ _ _ y rfl a10 ha10]
    by_cases h00 : (y 0).val = 0 ∧ (y 1).val = 0
    · rw [if_pos h00]
      exact View.read_writes_cons_unit_of_mem (off' := ![0, 0]) a5.view _ _ _ _ y (ix2 0 0) rfl
        (by
        have e0 : ((ix2 (0 : Fin 1) (0 : Fin 1) : S1x1.Idx) 0).val = 0 := rfl
        have e1 : ((ix2 (0 : Fin 1) (0 : Fin 1) : S1x1.Idx) 1).val = 0 := rfl
        refine Fin.forall_fin_two.mpr ⟨?_, ?_⟩
        · first
            | exact h00.1
            | (rw [e0]; exact h00.1)
            | (simp; omega)
        · first
            | exact h00.2
            | (rw [e1]; exact h00.2)
            | (simp; omega))
    · rw [if_neg h00]
      have hskip00 : ∃ a : Fin 2, (y a).val < (![0, 0] : Fin 2 → Nat) a ∨ (![0, 0] : Fin 2 → Nat) a + (![1, 1] : Fin 2 → Nat) a ≤ (y a).val := by
        by_cases h : (y 0).val = 0
        · exact ⟨1, Or.inr (by show 0 + 1 ≤ (y 1).val; omega)⟩
        · exact ⟨0, Or.inr (by show 0 + 1 ≤ (y 0).val; omega)⟩
      obtain ⟨a00, ha00⟩ := hskip00
      rw [View.read_writes_cons_unit_of_not_mem (off' := ![0, 0]) a5.view _ _ _ _ y rfl a00 ha00, View.writes_nil]
      exact congrFun (h5.read_unread xo) y

end Cert.KernelIdeal.Pieces

end
-- ==== Proof.KRow.lean ====
/-
  The kernel body's arithmetic on one tile of 4096 rows, read at an index over the extended reals: the per-row
  values are the specification's `ap`, `an` of the tile's rows, and the two stored sums add the tile's total
  hinge loss and its count of precise rows to what the output block held.
-/
import proofs.«422907_j61057255080333_3_alg».proof.Proof.Gen.KernelIdeal.Skeleton
import proofs.«422907_j61057255080333_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.TcCoe Idealize.ShloMosaic.ValueIdx
open Cert.KernelIdeal Cert.KernelIdeal.Gen Cert.TripletCenter

/-- Row `p` of a tile of inputs, and the centers as rows. -/
abbrev brow (x0 : Vec Ideal S4096x40 .f32) (p : Fin 4096) : Fin 40 → EReal := fun k => x0 (ix2 p k)
abbrev bcen (x2 : Vec Ideal S40x40 .f32) : Fin 40 → Fin 40 → EReal := fun j k => x2 (ix2 j k)

/-- The tile's total hinge loss and its count of precise rows. -/
def tileLoss (x0 : Vec Ideal S4096x40 .f32) (x1 : Vec Ideal S4096x1 .i32) (x2 : Vec Ideal S40x40 .f32) : EReal :=
  ∑ p : Fin 4096, lossRow (brow x0 p) (bcen x2) (x1 (ix2 p 0))
def tilePrec (x0 : Vec Ideal S4096x40 .f32) (x1 : Vec Ideal S4096x1 .i32) (x2 : Vec Ideal S40x40 .f32) : EReal :=
  ∑ p : Fin 4096, precRow (brow x0 p) (bcen x2) (x1 (ix2 p 0))

/-! ## Layout operations of the keepdims column forms, read at coordinates -/

section Layout
variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sums and the lane minimum of a tile, read at a row -/

/-- Row `p` with the lane `k` put back is `(p, k)`. -/
private theorem lift_row (h : S4096x40.Reduces [1] S4096) (p : Fin 4096) (k : Fin 40) :
    h.lift (ix1 p) k = ix2 p k :=
  funext fun c => Fin.ext (match c with | ⟨0, _⟩ => rfl | ⟨1, _⟩ => rfl)

private theorem lift_cen (h : S40x40.Reduces [1] S40) (j : Fin 40) (k : Fin 40) :
    h.lift (ix1 j) k = ix2 j k :=
  funext fun c => Fin.ext (match c with | ⟨0, _⟩ => rfl | ⟨1, _⟩ => rfl)

/-- The one result index with row `p` put back on the reduced axis 0 is `(p, 0)`. -/
private theorem lift_col (h : S4096x1.Reduces [0] S1) (u : Fin 1) (p : Fin 4096) :
    h.lift (ix1 u) p = ix2 p u :=
  funext fun c => Fin.ext (match c with | ⟨0, _⟩ => rfl | ⟨1, _⟩ => rfl)

/-- The sum along the lanes of a tile, at row `p`. -/
private theorem rowSum_apply (src : FVec Ideal S4096x40 .f32) (h : S4096x40.Reduces [1] S4096) (hφ : FKind.Formats .f32)
    (hacc : (0x00000000#32 : BitVec 32) = FKind.add.neutral .f32 hφ) (p : Fin 4096) :
    multiReduction (F := Ideal) .add [1] S4096 src 0x00000000#32 h hφ hacc (ix1 p) = ∑ k : Fin 40, src (ix2 p k) :=
  (Ideal.multiReduction_add_single src 0x00000000#32 h hφ hacc (ix1 p)).trans
    (Finset.sum_congr rfl fun k _ => congrArg src (lift_row h p k))

/-- The sum along the lanes of the centers, at center `j`. -/
private theorem cenSum_apply (src : FVec Ideal S40x40 .f32) (h : S40x40.Reduces [1] S40) (hφ : FKind.Formats .f32)
    (hacc : (0x00000000#32 : BitVec 32) = FKind.add.neutral .f32 hφ) (j : Fin 40) :
    multiReduction (F := Ideal) .add [1] S40 src 0x00000000#32 h hφ hacc (ix1 j) = ∑ k : Fin 40, src (ix2 j k) :=
  (Ideal.multiReduction_add_single src 0x00000000#32 h hφ hacc (ix1 j)).trans
    (Finset.sum_congr rfl fun k _ => congrArg src (lift_cen h j k))

/-- The sum down a column of 4096 rows. -/
private theorem colSum_apply (src : FVec Ideal S4096x1 .f32) (h : S4096x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ p : Fin 4096, src (ix2 p u) :=
  (Ideal.multiReduction_add_single src 0x00000000#32 h hφ hacc (ix1 u)).trans
    (Finset.sum_congr rfl fun p _ => congrArg src (lift_col h u p))

/-- A lane minimum over one axis at the ideal values: the fold of `min` from the accumulator's value over that axis's coordinates. -/
private theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the lanes of a tile from +∞, at row `p`. -/
private theorem rowMin_apply (src : FVec Ideal S4096x40 .f32) (h : S4096x40.Reduces [1] S4096) (hφ : FKind.Formats .f32)
    (hacc : (0x7F800000#32 : BitVec 32) = FKind.minimumf.neutral .f32 hφ) (p : Fin 4096) :
    multiReduction (F := Ideal) .minimumf [1] S4096 src 0x7F800000#32 h hφ hacc (ix1 p)
      = (Finset.univ : Finset (Fin 40)).fold min inf (fun k => src (ix2 p k)) :=
  (multiReduction_minimumf_single src 0x7F800000#32 h hφ hacc (ix1 p)).trans
    (congrArg (fun f : Fin 40 → EReal => (Finset.univ : Finset (Fin 40)).fold min inf f)
      (funext fun k => congrArg src (lift_row h p k)))

/-! ## The product with the transposed centers, read at an index -/

theorem lhs_dot_0 (i : S4096x40.Idx) (q : dot_S4096x40_S40x40_S4096x40_1_0_0_1_n_n.contr.Idx) :
    (dot_S4096x40_S40x40_S4096x40_1_0_0_1_n_n.lhsIdx i q 0).val = (i 0).val := by
  unfold DotDims.lhsIdx
  rw [dif_neg (show ¬(0 : Fin S4096x40.rank) ∈ dot_S4096x40_S40x40_S4096x40_1_0_0_1_n_n.lhsBatch by decide), dif_pos (show (0 : Fin S4096x40.rank) ∈ dot_S4096x40_S40x40_S4096x40_1_0_0_1_n_n.lhsNonContracting by decide)]
  rfl
theorem lhs_dot_1 (i : S4096x40.Idx) (q : dot_S4096x40_S40x40_S4096x40_1_0_0_1_n_n.contr.Idx) :
    (dot_S4096x40_S40x40_S4096x40_1_0_0_1_n_n.lhsIdx i q 1).val = (q ⟨0, by decide⟩).val :=
  dot_S4096x40_S40x40_S4096x40_1_0_0_1_n_n.lhsIdx_val_of_single rfl i q
theorem rhs_dot_0 (i : S4096x40.Idx) (q : dot_S4096x40_S40x40_S4096x40_1_0_0_1_n_n.contr.Idx) :
    (dot_S4096x40_S40x40_S4096x40_1_0_0_1_n_n.rhsIdx i q 0).val = (q ⟨0, by decide⟩).val :=
  dot_S4096x40_S40x40_S4096x40_1_0_0_1_n_n.rhsIdx_val_of_single rfl i q
theorem rhs_dot_1 (i : S4096x40.Idx) (q : dot_S4096x40_S40x40_S4096x40_1_0_0_1_n_n.contr.Idx) :
    (dot_S4096x40_S40x40_S4096x40_1_0_0_1_n_n.rhsIdx i q 1).val = (i 1).val := by
  unfold DotDims.rhsIdx
  rw [dif_neg (show ¬(1 : Fin S40x40.rank) ∈ dot_S4096x40_S40x40_S4096x40_1_0_0_1_n_n.rhsBatch by decide), dif_pos (show (1 : Fin S40x40.rank) ∈ dot_S4096x40_S40x40_S4096x40_1_0_0_1_n_n.rhsNonContracting by decide)]
  rfl

/-- The product of a tile with a [40, 40] matrix into a zero accumulator, at `(p, j)`: the sum over the contracted coordinate. -/
theorem dot_apply (l : FVec Ideal S4096x40 .f32) (r : FVec Ideal S40x40 .f32) (p : Fin 4096) (j : Fin 40) :
    matmul (F := Ideal) dot_S4096x40_S40x40_S4096x40_1_0_0_1_n_n (some .fp32) l r (constant (F := Ideal) S4096x40 .f32 0x00000000#32) (ix2 p j)
      = ∑ k : Fin 40, l (ix2 p k) * r (ix2 k j) := by
  simp only [matmul]
  rw [Ideal.matmul_constant_zero_apply, ← Equiv.sum_comp (contrEquiv1 dot_S4096x40_S40x40_S4096x40_1_0_0_1_n_n 40 rfl rfl).symm]
  refine Finset.sum_congr rfl fun k _ => ?_
  have hk := contrEquiv1_symm_val dot_S4096x40_S40x40_S4096x40_1_0_0_1_n_n 40 rfl rfl k
  have el : dot_S4096x40_S40x40_S4096x40_1_0_0_1_n_n.lhsIdx (ix2 p j) ((contrEquiv1 dot_S4096x40_S40x40_S4096x40_1_0_0_1_n_n 40 rfl rfl).symm k) = ix2 p k := funext fun a => Fin.ext (by
    match a with
    | ⟨0, _⟩ => exact lhs_dot_0 _ _
    | ⟨1, _⟩ => exact (lhs_dot_1 _ _).trans hk)
  have er : dot_S4096x40_S40x40_S4096x40_1_0_0_1_n_n.rhsIdx (ix2 p j) ((contrEquiv1 dot_S4096x40_S40x40_S4096x40_1_0_0_1_n_n 40 rfl rfl).symm k) = ix2 k j := funext fun a => Fin.ext (by
    match a with
    | ⟨0, _⟩ => exact (rhs_dot_0 _ _).trans hk
    | ⟨1, _⟩ => exact rhs_dot_1 _ _)
  rw [el, er]

/-! ## The distances -/

/-- The kernel's distance matrix at `(p, j)`: the distance from row `p` of the tile to center `j`. -/
theorem pay4_apply (x0 : FVec Ideal S4096x40 .f32) (x2 : FVec Ideal S40x40 .f32) (p : Fin 4096) (j : Fin 40) :
    k0_pay4 (F := Ideal) x0 x2 (ix2 p j) = dist (brow x0 p) (bcen x2 j) := by
  have hA : broadcastTo S4096x40 (shapeCast S4096x1 (multiReduction (F := Ideal) .add [1] S4096 (mulf x0 x0) 0x00000000#32 reduces_S4096x40_S4096 (.inl rfl) rfl) shapeCasts_S4096_S4096x1) broadcasts_S4096x1_S4096x40 (ix2 p j)
      = sqn (brow x0 p) := by
    rw [broadcastTo_a1_ab_apply, shapeCast_a_a1_apply]
    exact rowSum_apply _ _ _ _ p
  have hB : broadcastTo S4096x40 (shapeCast S1x40 (multiReduction (F := Ideal) .add [1] S40 (mulf x2 x2) 0x00000000#32 reduces_S40x40_S40 (.inl rfl) rfl) shapeCasts_S40_S1x40) broadcasts_S1x40_S4096x40 (ix2 p j)
      = sqn (bcen x2 j) := by
    rw [broadcastTo_1b_ab_apply, shapeCast_a_1a_apply]
    exact cenSum_apply _ _ _ _ j
  have hC : matmul (F := Ideal) dot_S4096x40_S40x40_S4096x40_1_0_0_1_n_n (some .fp32) x0 (transpose S40x40 [1, 0] x2 transposes_S40x40_p1_0_S40x40) (constant (F := Ideal) S4096x40 .f32 0x00000000#32) (ix2 p j)
      = inner (brow x0 p) (bcen x2 j) := by
    rw [dot_apply]
    exact Finset.sum_congr rfl fun k _ => congrArg (x0 (ix2 p k) * ·) (transpose_ix2_apply x2 _ k j)
  exact congrArg Ideal.sqrt (congrArg (max tiny) (congrArg₂ (· - ·) (congrArg₂ (· + ·) hA hB) (congrArg (two * ·) hC)))

/-! ## The label mask -/

/-- A word comparison for equality answers `1` exactly at equal words. -/
private theorem cmpi_eq_one_iff (a b : BitVec 32) : IntOp.cmpi .eq a b = 1#1 ↔ a = b := by
  show BitVec.ofBool (a == b) = 1#1 ↔ a = b
  by_cases h : a = b
  · subst h; simp
  · rw [beq_eq_false_iff_ne.mpr h]
    exact ⟨fun e => absurd e (by decide), fun e => absurd e h⟩

/-- The kernel's mask at `(p, j)` compares the lane number `j` with row `p`'s label. -/
theorem pay5_apply (x1 : IVec S4096x1 32) (p : Fin 4096) (j : Fin 40) :
    k0_pay5 (F := Ideal) x1 (ix2 p j) = IntOp.cmpi .eq (BitVec.ofNat 32 j.val) (x1 (ix2 p 0)) := by
  have hI : iota .tc S4096x40 32 [1] iota_S4096x40_d1_w32 (ix2 p j) = BitVec.ofNat 32 j.val :=
    iota_single_apply .tc S4096x40 32 1 iota_S4096x40_d1_w32 (ix2 p j)
  have hL : broadcastTo S4096x40 (shapeCast S4096x1 x1 shapeCasts_S4096x1_S4096x1) broadcasts_S4096x1_S4096x40 (ix2 p j) = x1 (ix2 p 0) := by
    rw [broadcastTo_a1_ab_apply, shapeCast_self]
  exact congrArg₂ (IntOp.cmpi .eq) hI hL

/-- So the mask is set at `(p, j)` exactly when class `j` is row `p`'s label. -/
theorem pay5_iff (x1 : IVec S4096x1 32) (p : Fin 4096) (j : Fin 40) :
    k0_pay5 (F := Ideal) x1 (ix2 p j) = 1#1 ↔ isLabel (x1 (ix2 p 0)) j := by
  rw [pay5_apply]; exact cmpi_eq_one_iff _ _

/-! ## The two distances of a row, and their difference -/

/-- The masked lane sum at row `p`: the distance to the row's own center. -/
theorem pay6_apply (x0 : FVec Ideal S4096x40 .f32) (x1 : IVec S4096x1 32) (x2 : FVec Ideal S40x40 .f32) (p : Fin 4096) (u : Fin 1) :
    k0_pay6 (F := Ideal) x0 x1 x2 (ix2 p u) = ap (brow x0 p) (bcen x2) (x1 (ix2 p 0)) := by
  have h : shapeCast S4096x1 (multiReduction (F := Ideal) .add [1] S4096 (select (k0_pay5 (F := Ideal) x1) (k0_pay4 (F := Ideal) x0 x2) (broadcast S4096x40 (Scalar.ofBits (F := Ideal) .f32 0x00000000#32))) 0x00000000#32 reduces_S4096x40_S4096 (.inl rfl) rfl) shapeCasts_S4096_S4096x1 (ix2 p u)
      = ∑ k : Fin 40, (if k0_pay5 (F := Ideal) x1 (ix2 p k) = 1#1 then k0_pay4 (F := Ideal) x0 x2 (ix2 p k) else Ideal.ofBits .f32 0x00000000#32) := by
    rw [shapeCast_a_a1_apply]
    exact rowSum_apply _ _ _ _ p
  refine h.trans (Finset.sum_congr rfl fun k _ => ?_)
  rw [pay4_apply, Ideal.ofBits_zero_f32]
  exact if_congr (pay5_iff x1 p k) rfl rfl

/-- The lane minimum with the label's lane at +∞, at row `p`: the distance to the nearest other center. -/
theorem pay7_apply (x0 : FVec Ideal S4096x40 .f32) (x1 : IVec S4096x1 32) (x2 : FVec Ideal S40x40 .f32) (p : Fin 4096) (u : Fin 1) :
    k0_pay7 (F := Ideal) x0 x1 x2 (ix2 p u) = an (brow x0 p) (bcen x2) (x1 (ix2 p 0)) := by
  have h : shapeCast S4096x1 (multiReduction (F := Ideal) .minimumf [1] S4096 (select (k0_pay5 (F := Ideal) x1) (broadcast S4096x40 (Scalar.ofBits (F := Ideal) .f32 0x7F800000#32)) (k0_pay4 (F := Ideal) x0 x2)) 0x7F800000#32 reduces_S4096x40_S4096 (.inl rfl) rfl) shapeCasts_S4096_S4096x1 (ix2 p u)
      = (Finset.univ : Finset (Fin 40)).fold min inf (fun k => if k0_pay5 (F := Ideal) x1 (ix2 p k) = 1#1 then inf else k0_pay4 (F := Ideal) x0 x2 (ix2 p k)) := by
    rw [shapeCast_a_a1_apply]
    exact rowMin_apply _ _ _ _ p
  refine h.trans (congrArg (fun f : Fin 40 → EReal => (Finset.univ : Finset (Fin 40)).fold min inf f) (funext fun k => ?_))
  rw [pay4_apply]
  exact if_congr (pay5_iff x1 p k) rfl rfl

/-- Their difference, a zero added. -/
theorem pay8_apply (x0 : FVec Ideal S4096x40 .f32) (x1 : IVec S4096x1 32) (x2 : FVec Ideal S40x40 .f32) (p : Fin 4096) (u : Fin 1) :
    k0_pay8 (F := Ideal) x0 x1 x2 (ix2 p u)
      = ap (brow x0 p) (bcen x2) (x1 (ix2 p 0)) - an (brow x0 p) (bcen x2) (x1 (ix2 p 0)) := by
  show (k0_pay6 (F := Ideal) x0 x1 x2 (ix2 p u) - k0_pay7 (F := Ideal) x0 x1 x2 (ix2 p u)) + Ideal.ofBits .f32 0x00000000#32 = _
  rw [pay6_apply, pay7_apply, Ideal.ofBits_zero_f32, add_zero]

/-! ## The two stored sums, and the reset block -/

/-- The sum down a column of 4096 rows, cast to [1, 1]. -/
private theorem colSum11_apply (src : FVec Ideal S4096x1 .f32) (h : S4096x1.Reduces [0] S1) (hφ : FKind.Formats .f32)
    (hacc : (0x00000000#32 : BitVec 32) = FKind.add.neutral .f32 hφ) (hc : S1.ShapeCasts S1x1) (u v : Fin 1) :
    shapeCast S1x1 (multiReduction (F := Ideal) .add [0] S1 src 0x00000000#32 h hφ hacc) hc (ix2 u v)
      = ∑ p : Fin 4096, src (ix2 p v) := by
  rw [shapeCast_a_1a_apply]; exact colSum_apply src h hφ hacc v

/-- A one-bit word widened to 32 bits and converted as a signed integer is its value as a natural number. -/
private theorem sitofp_extui_bit (b : BitVec 1) :
    FloatOps.sitofp (F := Ideal) .f32 (b.setWidth 32) = ((b.toNat : ℝ) : EReal) := by
  have hb : ∀ c : BitVec 1, (c.setWidth 32).toInt = (c.toNat : ℤ) := by decide
  show (((b.setWidth 32).toInt : ℝ) : EReal) = _
  rw [hb, Int.cast_natCast]

/-- The store at [0:1, 0:1]: what was there plus the tile's loss. -/
theorem pay1_tile (x0 : Vec Ideal S4096x40 .f32) (x1 : Vec Ideal S4096x1 .i32) (x2 : Vec Ideal S40x40 .f32) (v47 : Vec Ideal S1x1 .f32) :
    k0_pay1 (F := Ideal) (k0_pay8 (F := Ideal) x0 x1 x2) (FloatOps.ofBits (F := Ideal) .f32 0x00000000#32) v47 (ix2 0 0)
      = v47 (ix2 0 0) + tileLoss x0 x1 x2 := by
  show shapeCast S1x1 v47 shapeCasts_S1x1_S1x1 (ix2 0 0) + shapeCast S1x1 (multiReduction (F := Ideal) .add [0] S1 (maximumf (k0_pay8 (F := Ideal) x0 x1 x2) (broadcast S4096x1 (FloatOps.ofBits (F := Ideal) .f32 0x00000000#32))) 0x00000000#32 reduces_S4096x1_S1 (.inl rfl) rfl) shapeCasts_S1_S1x1 (ix2 0 0) = _
  rw [shapeCast_self]
  unfold tileLoss
  refine congrArg (v47 (ix2 0 0) + ·) ((colSum11_apply _ _ _ _ _ 0 0).trans (Finset.sum_congr rfl fun p _ => ?_))
  rw [maximumf_apply, broadcast_apply, pay8_apply, Ideal.ofBits_def, Ideal.ofBits_zero_f32]
  rfl

/-- The store at [1:2, 0:1]: what was there plus the tile's count of precise rows. -/
theorem pay2_tile (x0 : Vec Ideal S4096x40 .f32) (x1 : Vec Ideal S4096x1 .i32) (x2 : Vec Ideal S40x40 .f32) (v51 : Vec Ideal S1x1 .f32) :
    k0_pay2 (F := Ideal) (k0_pay6 (F := Ideal) x0 x1 x2) (k0_pay7 (F := Ideal) x0 x1 x2) v51 (ix2 0 0)
      = v51 (ix2 0 0) + tilePrec x0 x1 x2 := by
  show shapeCast S1x1 v51 shapeCasts_S1x1_S1x1 (ix2 0 0) + shapeCast S1x1 (multiReduction (F := Ideal) .add [0] S1 (sitofp (F := Ideal) .f32 (extui 32 (cmpf .ogt (k0_pay7 (F := Ideal) x0 x1 x2) (k0_pay6 (F := Ideal) x0 x1 x2)) natLt_1_32)) 0x00000000#32 reduces_S4096x1_S1 (.inl rfl) rfl) shapeCasts_S1_S1x1 (ix2 0 0) = _
  rw [shapeCast_self]
  unfold tilePrec
  refine congrArg (v51 (ix2 0 0) + ·) ((colSum11_apply _ _ _ _ _ 0 0).trans (Finset.sum_congr rfl fun p _ => ?_))
  rw [sitofp_apply, extui_apply, cmpf_apply, Ideal.cmpf_def, sitofp_extui_bit, pay6_apply, pay7_apply]
  rfl

/-- The reset block is zero everywhere. -/
theorem pay3_apply (y : S8x128.Idx) : k0_pay3 (F := Ideal) y = 0 := by
  show Ideal.ofBits .f32 0x00000000#32 = 0
  exact Ideal.ofBits_zero_f32

end Cert.KernelIdeal.RowValue

end
-- ==== Proof.KBlocks.lean ====
/-
  The blocks the kernel's windows read, as rows of the argument arrays: at grid point `t` (tile `t` of the rows) the
  inputs' block is rows `4096·t … 4096·t + 4095`, the labels' block the same rows of the label column, the centers'
  block the whole array. So a tile's loss sum and count are sums of the specification's per-row values.
-/
import proofs.«422907_j61057255080333_3_alg».proof.Proof.Gen.KernelIdeal.Frame
import proofs.«422907_j61057255080333_3_alg».proof.Proof.KRow
import proofs.«422907_j61057255080333_3_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.RowValue Cert.TripletCenter

variable (m : (ℓ : Loc nD τ sig) → Buf (Elt Ideal) ℓ)

/-- The argument arrays on core `c`, at their literal types. -/
abbrev xarr (c : Dev nD) : SX.Idx → EReal := m ((c.tc : Thread nD τ).loc main_arg0)
abbrev tarr (c : Dev nD) : ST.Idx → BitVec 32 := m ((c.tc : Thread nD τ).loc main_arg1)
abbrev carr (c : Dev nD) : SC.Idx → EReal := m ((c.tc : Thread nD τ).loc main_arg2)

/-- The blocks at point `t`, at their literal types. -/
abbrev xblk (c : Dev nD) (t : Fin cfg0.N) : Vec Ideal S4096x40 .f32 := iblk m c 0 t
abbrev tblk (c : Dev nD) (t : Fin cfg0.N) : Vec Ideal S4096x1 .i32 := iblk m c 1 t
abbrev cblk (c : Dev nD) (t : Fin cfg0.N) : Vec Ideal S40x40 .f32 := iblk m c 2 t

/-- Row `p` of tile `n` among all the rows (`n < 128`). -/
abbrev tileRow (n : Nat) (hn : n < 128) (p : Fin 4096) : Fin 524288 :=
  ⟨n * 4096 + p.val, by have := p.isLt; omega⟩

/-- The windows' block indices at each grid point, decided once over the grid: point `t` reads block `(t, 0)` of the
    inputs and of the label column, and block `(0, 0)` of the centers. -/
private theorem idx_facts : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = 0 ∧ win0_2.index t (1 : Fin 2) = 0 :=
  (by decide +kernel : ∀ t : Fin grid0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = 0 ∧ win0_2.index t (1 : Fin 2) = 0)

/-- The inputs' block at point `t`, entry `(p, k)`: the inputs at row `4096·t + p`, column `k`. -/
theorem xblk_apply (c : Dev nD) (t : Fin cfg0.N) (ht : t.val < 128) (p : Fin 4096) (k : Fin 40) :
    xblk m c t (ix2 p k) = xarr m c (ix2 (tileRow t.val ht p) k) := by
  have hi := idx_facts t
  show iblk m c 0 t (ix2 p k) = m ((c.tc : Thread nD τ).loc main_arg0) (ix2 (tileRow t.val ht p) k)
  unfold iblk
  rw [View.read_apply]
  show V m c main_arg0 _ = m ((c.tc : Thread nD τ).loc main_arg0) _
  rw [V_main_arg0 m c]
  congr 1
  funext a
  apply Fin.ext
  match a with
  | ⟨0, _⟩ => show win0_0.index t 0 * 4096 + 1 * p.val = t.val * 4096 + p.val; rw [hi.1]; omega
  | ⟨1, _⟩ => show win0_0.index t 1 * 40 + 1 * k.val = k.val; rw [hi.2.1]; omega

/-- The centers' block at any point is the whole array. -/
theorem cblk_apply (c : Dev nD) (t : Fin cfg0.N) (j k : Fin 40) :
    cblk m c t (ix2 j k) = carr m c (ix2 j k) := by
  have hi := idx_facts t
  show iblk m c 2 t (ix2 j k) = m ((c.tc : Thread nD τ).loc main_arg2) (ix2 j k)
  unfold iblk
  rw [View.read_apply]
  show V m c main_arg2 _ = m ((c.tc : Thread nD τ).loc main_arg2) _
  rw [V_main_arg2 m c]
  congr 1
  funext a
  apply Fin.ext
  match a with
  | ⟨0, _⟩ => show win0_2.index t 0 * 40 + 1 * j.val = j.val; rw [hi.2.2.2.2.1]; omega
  | ⟨1, _⟩ => show win0_2.index t 1 * 40 + 1 * k.val = k.val; rw [hi.2.2.2.2.2]; omega

/-- The label column the region finds: the labels, reshaped from [524288] to [524288, 1] before the region. -/
private theorem V_main_v0 (c : Dev nD) :
    (V m c main_v0 : S524288x1.Idx → BitVec 32)
      = shapeCast S524288x1 (m ((c.tc : Thread nD τ).loc main_arg1)) shapeCasts_S524288_S524288x1 := by
  show StableHlo.after hostOps0 (fun b => m (c, b)) (Proc.devRef .tc main_v0) = _
  after_results
  rfl

/-- The label column's block at point `t`, entry `(p, 0)`: the label of row `4096·t + p`. -/
theorem tblk_apply (c : Dev nD) (t : Fin cfg0.N) (ht : t.val < 128) (p : Fin 4096) :
    tblk m c t (ix2 p 0) = tarr m c (ix1 (tileRow t.val ht p)) := by
  have hi := idx_facts t
  show iblk m c 1 t (ix2 p 0) = m ((c.tc : Thread nD τ).loc main_arg1) (ix1 (tileRow t.val ht p))
  unfold iblk
  rw [View.read_apply]
  show V m c main_v0 _ = m ((c.tc : Thread nD τ).loc main_arg1) _
  rw [V_main_v0 m c]
  rw [shapeCast_apply _ _ _ (ix1 (tileRow t.val ht p))]
  rw [Shape.rowMajor_val_one, Shape.rowMajor_val_two]
  show t.val * 4096 + p.val = (win0_1.index t 0 * 4096 + 1 * p.val) * 1 + (win0_1.index t 1 * 1 + 1 * 0)
  rw [hi.2.2.1, hi.2.2.2.1]
  omega

/-- The loss sum of the tile the body meets at point `t`. -/
theorem tileLoss_blk (c : Dev nD) (t : Fin cfg0.N) (ht : t.val < 128) :
    tileLoss (xblk m c t) (tblk m c t) (cblk m c t)
      = ∑ p : Fin 4096, lossAt (xarr m c) (tarr m c) (carr m c) (tileRow t.val ht p) := by
  unfold tileLoss
  refine Finset.sum_congr rfl fun p _ => ?_
  unfold lossAt
  have e1 : brow (xblk m c t) p = xrow (xarr m c) (tileRow t.val ht p) := funext fun k => xblk_apply m c t ht p k
  have e2 : bcen (cblk m c t) = crow (carr m c) := funext fun j => funext fun k => cblk_apply m c t j k
  rw [e1, e2, tblk_apply m c t ht p]

/-- The count of precise rows of that tile. -/
theorem tilePrec_blk (c : Dev nD) (t : Fin cfg0.N) (ht : t.val < 128) :
    tilePrec (xblk m c t) (tblk m c t) (cblk m c t)
      = ∑ p : Fin 4096, precAt (xarr m c) (tarr m c) (carr m c) (tileRow t.val ht p) := by
  unfold tilePrec
  refine Finset.sum_congr rfl fun p _ => ?_
  unfold precAt
  have e1 : brow (xblk m c t) p = xrow (xarr m c) (tileRow t.val ht p) := funext fun k => xblk_apply m c t ht p k
  have e2 : bcen (cblk m c t) = crow (carr m c) := funext fun j => funext fun k => cblk_apply m c t j k
  rw [e1, e2, tblk_apply m c t ht p]

end Cert.KernelIdeal.Blocks

end
-- ==== Proof.KAccum.lean ====
/-
  What the kernel's output block holds point by point, and so what the result array [16,128] holds after the run.
  Within a core's run of 64 points the block is reset at the first point and, at every point, entry (0,0) gets the
  tile's loss sum added and entry (1,0) the tile's count of precise rows: at the run's last point — the one written
  back — an entry is the sum over the run's 64 tiles of what each point adds there.
-/
import proofs.«422907_j61057255080333_3_alg».proof.Proof.Gen.KernelIdeal.Frame
import proofs.«422907_j61057255080333_3_alg».proof.Proof.KPieces
import proofs.«422907_j61057255080333_3_alg».proof.Proof.KRow
import proofs.«422907_j61057255080333_3_alg».proof.Proof.KBlocks
import Idealize.ShloMosaic.Lib.Pipeline.Value
import Idealize.ShloMosaic.Lib.ValueIdx
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.RowValue Cert.KernelIdeal.Blocks

variable (m : (ℓ : Loc nD τ sig) → Buf (Elt Ideal) ℓ)

/-- What point `n` adds to each entry of the block: the tile's count at (1,0), its loss sum at (0,0), nothing elsewhere
    (and nothing past the grid). -/
def addend (c : Dev nD) (n : Nat) : S8x128.Idx → EReal := fun y =>
  if h : n < cfg0.N then
    (if (y 0).val = 1 ∧ (y 1).val = 0 then tilePrec (xblk m c ⟨n, h⟩) (tblk m c ⟨n, h⟩) (cblk m c ⟨n, h⟩)
     else if (y 0).val = 0 ∧ (y 1).val = 0 then tileLoss (xblk m c ⟨n, h⟩) (tblk m c ⟨n, h⟩) (cblk m c ⟨n, h⟩)
     else 0)
  else 0

/-- The block after a run's first point, and after a later point over what the point before left. -/
def resetAt (c : Dev nD) (n : Nat) (_ : n < cfg0.N) : S8x128.Idx → EReal := fun y => 0 + addend m c n y
def stepAt (c : Dev nD) (n : Nat) (_ : n < cfg0.N) (acc : S8x128.Idx → EReal) : S8x128.Idx → EReal :=
  fun y => acc y + addend m c n y

/-- The block after point `n`, at its literal type. -/
abbrev outs (c : Dev nD) (n : Nat) (h : n < cfg0.N) : S8x128.Idx → EReal := outsAt0 m c n h

theorem zf_eq : (zf (F := Ideal)) = (0 : EReal) := Ideal.ofBits_zero_f32

/-- A run's first point resets. -/
theorem outs_reset (c : Dev nD) (n : Nat) (h : n < cfg0.N) (h0 : n % 64 = 0) : outs m c n h = resetAt m c n h := by
  show outsAt0 m c (⟨n, h⟩ : Fin cfg0.N).val (⟨n, h⟩ : Fin cfg0.N).isLt = _
  rw [outsAt0_A m c ⟨n, h⟩ h0]
  funext y
  rw [out_A]
  unfold resetAt addend
  rw [dif_pos h]
  by_cases h10 : (y 0).val = 1 ∧ (y 1).val = 0
  · rw [if_pos h10, if_pos h10]
    exact (pay2_tile _ _ _ _).trans (by rw [zf_eq])
  · rw [if_neg h10, if_neg h10]
    by_cases h00 : (y 0).val = 0 ∧ (y 1).val = 0
    · rw [if_pos h00, if_pos h00]
      exact (pay1_tile _ _ _ _).trans (by rw [zf_eq])
    · rw [if_neg h00, if_neg h00, zf_eq, add_zero]

/-- A later point adds to what the point before left. -/
theorem outs_step (c : Dev nD) (n : Nat) (h : n + 1 < cfg0.N) (h0 : ¬(n + 1) % 64 = 0) :
    outs m c (n + 1) h = stepAt m c (n + 1) h (outs m c n (Nat.lt_of_succ_lt h)) := by
  show outsAt0 m c (⟨n + 1, h⟩ : Fin cfg0.N).val (⟨n + 1, h⟩ : Fin cfg0.N).isLt = _
  rw [outsAt0_B m c ⟨n + 1, h⟩ h0]
  funext y
  rw [out_B]
  unfold stepAt addend
  rw [dif_pos h]
  show _ = outsAt0 m c n _ y + _
  by_cases h10 : (y 0).val = 1 ∧ (y 1).val = 0
  · rw [if_pos h10, if_pos h10]
    refine (pay2_tile _ _ _ _).trans ?_
    have hy : y = ix2 1 0 := by
      funext a; apply Fin.ext
      match a with
      | ⟨0, _⟩ => exact h10.1
      | ⟨1, _⟩ => exact h10.2
    rw [hy]
    rfl
  · rw [if_neg h10, if_neg h10]
    by_cases h00 : (y 0).val = 0 ∧ (y 1).val = 0
    · rw [if_pos h00, if_pos h00]
      refine (pay1_tile _ _ _ _).trans ?_
      have hy : y = ix2 0 0 := by
        funext a; apply Fin.ext
        match a with
        | ⟨0, _⟩ => exact h00.1
        | ⟨1, _⟩ => exact h00.2
      rw [hy]
      rfl
    · rw [if_neg h00, if_neg h00, add_zero]
      rfl

/-- THE RUN'S FOLD at the point written back: each entry is the sum of what the run's 64 points add there. -/
theorem outs_flush (c : Dev nD) (t : Fin cfg0.N) (ht : t.val % 64 = 63) (y : S8x128.Idx) :
    outs m c t.val t.isLt y = 0 + ∑ s ∈ Finset.range 64, addend m c (64 * (t.val / 64) + s) y := by
  have hN : cfg0.N = 128 := N_0
  have h' : 64 * (t.val / 64) + t.val % 64 < cfg0.N := by have := t.isLt; omega
  rw [Pipeline.eq_accAt_of_mod (outs m c) 64 (resetAt m c) (stepAt m c) (outs_reset m c) (outs_step m c) (by decide) t.val t.isLt h']
  have h63 : 64 * (t.val / 64) + 63 < cfg0.N := by have := t.isLt; omega
  have e : Pipeline.accAt (resetAt m c) (stepAt m c) (64 * (t.val / 64)) (t.val % 64) h'
      = Pipeline.accAt (resetAt m c) (stepAt m c) (64 * (t.val / 64)) 63 h63 := by
    congr 1
  rw [e]
  exact Pipeline.accAt_add_apply (resetAt m c) (stepAt m c) (fun _ => 0) (addend m c) (64 * (t.val / 64)) 63
    (fun _ _ => rfl) (fun _ _ _ _ _ _ => rfl) 63 le_rfl h63 y

end Cert.KernelIdeal.Accum

end
-- ==== Proof.KFinal.lean ====
/-
  The result array [16,128] after the run, and the two scalars the host lines after the region make of it.
  Core `q`'s block is rows `8q … 8q + 7`; it is written back once, after the core's last point, holding the run's
  fold: so entry (8q, 0) is the core's loss sum and (8q + 1, 0) its count. The host adds the two cores' entries and
  multiplies by the f32 constant 2⁻¹⁹.
-/
import proofs.«422907_j61057255080333_3_alg».proof.Proof.Gen.KernelIdeal.Frame
import proofs.«422907_j61057255080333_3_alg».proof.Proof.KAccum
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum

variable (m : (ℓ : Loc nD τ sig) → Buf (Elt Ideal) ℓ) (ρ : Dev nD → PrngReg)

/-- The output's block index at point `t` is the core `t / 64`, decided over the grid. -/
theorem idx_facts : ∀ t : Fin cfg0.N, win0_3.index t (0 : Fin 2) = t.val / 64 ∧ win0_3.index t (1 : Fin 2) = 0 :=
  (by decide +kernel : ∀ t : Fin grid0.N, win0_3.index t (0 : Fin 2) = t.val / 64 ∧ win0_3.index t (1 : Fin 2) = 0)

/-- An index of the result array, inside its core's block. -/
abbrev local8 (i : S16x128.Idx) : S8x128.Idx :=
  ix2 (⟨(i 0).val % 8, Nat.mod_lt _ (by decide)⟩ : Fin 8) (⟨(i 1).val, (i 1).isLt⟩ : Fin 128)

/-- What the result array ends holding: at row `8q + a` the fold of core `q`'s run at block row `a`. -/
def garr (c : Dev nD) : S16x128.Idx → EReal := fun i =>
  0 + ∑ s ∈ Finset.range 64, addend m c (64 * ((i 0).val / 8) + s) (local8 i)

/-- WHAT A WRITTEN-BACK POINT WRITES is its block of `garr`. -/
theorem flushed_eq (c : Dev nD) (t : Fin cfg0.N) (hf : (cfg0.win 3).flush t = true) :
    (dats m 0 c).flushed 3 t = ((cfg0.win 3).blk t).view.read (Elt Ideal) (garr m c) := by
  have ht : t.val % 64 = 63 := (flush0_3 t).mp hf
  show (cfg0.win 3).cut (grid0.coords t) ((dats m 0 c).after 3 t) = _
  rw [after0_3]
  funext y
  show outs m c t.val t.isLt y = garr m c (((cfg0.win 3).blk t).view.emb y)
  rw [outs_flush m c t ht y]
  obtain ⟨e0, e1⟩ := idx_facts t
  have hy0 : (y 0).val < 8 := (y 0).isLt
  have hy1 : (y 1).val < 128 := (y 1).isLt
  have E0 : ((((cfg0.win 3).blk t).view.emb y) 0).val = (t.val / 64) * 8 + (y 0).val := by
    show win0_3.index t (0 : Fin 2) * 8 + 1 * (y 0).val = _
    rw [e0]; omega
  have E1 : ((((cfg0.win 3).blk t).view.emb y) 1).val = (y 1).val := by
    show win0_3.index t (1 : Fin 2) * 128 + 1 * (y 1).val = _
    rw [e1]; omega
  have hq : ((((cfg0.win 3).blk t).view.emb y) 0).val / 8 = t.val / 64 := by rw [E0]; omega
  have hl : local8 (((cfg0.win 3).blk t).view.emb y) = y := by
    funext a; apply Fin.ext
    match a with
    | ⟨0, _⟩ => show ((((cfg0.win 3).blk t).view.emb y) 0).val % 8 = (y 0).val; rw [E0]; omega
    | ⟨1, _⟩ => exact E1
  unfold garr
  rw [hq, hl]

/-- An index of the array is in point `t`'s block iff each coordinate is in the block's range on its axis. -/
theorem mem_blk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v1).slice (win0_3.rect t)).set ↔ _
  rw [View.set_slice_whole, Rect.mem_set_unit]
  exact Iff.rfl

/-- The last point of core `q`'s run. -/
abbrev lastOf (q : Nat) (hq : q < 2) : Fin cfg0.N := ⟨64 * q + 63, by rw [show cfg0.N = 128 from N_0]; omega⟩

/-- THE ARRAY after the run: every row lies in its core's block, written back after the core's last point. -/
theorem final (c : Dev nD) : (dats m 0 c).arrAt 3 cfg0.N = garr m c :=
  (dats m 0 c).arrAt_eq_of_cover 3 (garr m c) (flushed_eq m c) fun i => by
    have hi0 : (i 0).val < 16 := (i 0).isLt
    have hi1 : (i 1).val < 128 := (i 1).isLt
    have hq : (i 0).val / 8 < 2 := by omega
    refine ⟨lastOf ((i 0).val / 8) hq, (flush0_3 _).mpr (by show (64 * ((i 0).val / 8) + 63) % 64 = 63; omega), ?_⟩
    rw [mem_blk]
    obtain ⟨e0, e1⟩ := idx_facts (lastOf ((i 0).val / 8) hq)
    have e0' : win0_3.index (lastOf ((i 0).val / 8) hq) (0 : Fin 2) = (i 0).val / 8 := by
      rw [e0]; show (64 * ((i 0).val / 8) + 63) / 64 = _; omega
    intro a
    match a with
    | ⟨0, _⟩ =>
      show win0_3.index (lastOf ((i 0).val / 8) hq) (0 : Fin 2) * 8 ≤ (i 0).val ∧ (i 0).val < win0_3.index (lastOf ((i 0).val / 8) hq) (0 : Fin 2) * 8 + 8
      rw [e0']; omega
    | ⟨1, _⟩ =>
      show win0_3.index (lastOf ((i 0).val / 8) hq) (1 : Fin 2) * 128 ≤ (i 1).val ∧ (i 1).val < win0_3.index (lastOf ((i 0).val / 8) hq) (1 : Fin 2) * 128 + 128
      rw [e1]; omega

end Cert.KernelIdeal.Final

end
-- ==== Proof.KTail.lean ====
/-
  The two scalars the host lines after the region make of the result array, and the kernel's run read back:
  rows 0 and 8 (1 and 9) of column 0 added, times the f32 constant 2⁻¹⁹.
-/
import proofs.«422907_j61057255080333_3_alg».proof.Proof.Gen.KernelIdeal.Frame
import proofs.«422907_j61057255080333_3_alg».proof.Proof.KFinal
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum

variable (m : (ℓ : Loc nD τ sig) → Buf (Elt Ideal) ℓ) (ρ : Dev nD → PrngReg)

/-- The host's one-by-one slice at row `r`, column 0, cast to a scalar, is the array's entry there. -/
theorem scalar_of_slice (A : S16x128.Idx → EReal) (r : Fin 16) (off : Fin 2 → Nat) (hoff : off = ![r.val, 0])
    (hs : S16x128.Slices off S1x1) (hc : S1x1.ShapeCasts S_) (i : S_.Idx) :
    shapeCast S_ (extractStridedSlice S1x1 off A hs) hc i = A (ix2 r 0) := by
  subst hoff
  refine (shapeCast_apply _ hc i (ix2 0 0) ?_).trans (extractStridedSlice_apply _ A hs (ix2 0 0) (ix2 r 0) ?_)
  · rw [Shape.rowMajor_val_two]
    have h1 := (S_.rowMajor i).isLt
    have hn : S_.numel = 1 := by decide
    show 0 * _ + 0 = _
    omega
  · intro a
    match a with
    | ⟨0, _⟩ => rfl
    | ⟨1, _⟩ => rfl

/-- The host's chain on any array `W`: two entries of column 0 added, times the constant. -/
theorem host_chain (W : S16x128.Idx → EReal) (r r' : Fin 16) (off off' : Fin 2 → Nat) (hoff : off = ![r.val, 0]) (hoff' : off' = ![r'.val, 0])
    (hs : S16x128.Slices off S1x1) (hs' : S16x128.Slices off' S1x1) :
    mulf (F := Ideal) (addf (F := Ideal) (φ := .f32) (shapeCast S_ (extractStridedSlice S1x1 off W hs) shapeCasts_S1x1_S_)
        (shapeCast S_ (extractStridedSlice S1x1 off' W hs') shapeCasts_S1x1_S_)) (constant (F := Ideal) S_ .f32 0x36000000#32)
      = fun _ => (W (ix2 r 0) + W (ix2 r' 0)) * Ideal.ofBits .f32 0x36000000#32 := by
  funext i
  rw [mulf_apply, addf_apply, constant_apply, scalar_of_slice W r off hoff, scalar_of_slice W r' off' hoff']

/-- The array the host lines after the region read is the one the run left. -/
theorem tail_arr (c : Dev nD) :
    Pipeline.withArrays (cfgs 0).spec c (V0 m c) (fun w => (dats m 0 c).arrAt w (cfgs 0).N) (Proc.devRef .tc main_v1) = garr m c :=
  (Pipeline.withArrays_arr spec0 launch0.win.arr_inj c _ _ 3).trans (final m c)

/-- The first scalar the host makes of the array: rows 0 and 8 of column 0 added, times the constant. -/
theorem tail_v12 (c : Dev nD) :
    Pipeline.afterTail₀ cfgs (dats m) 0 (V0 m) [hostOps1] c main_v12
      = fun _ => (garr m c (ix2 0 0) + garr m c (ix2 8 0)) * Ideal.ofBits .f32 0x36000000#32 := by
  unfold Pipeline.afterTail₀
  show StableHlo.after hostOps1 _ (Proc.devRef .tc main_v12) = _
  after_results
  rw [tail_arr]
  exact host_chain (garr m c) 0 8 ![0, 0] ![8, 0] rfl rfl _ _

/-- The second: rows 1 and 9. -/
theorem tail_v13 (c : Dev nD) :
    Pipeline.afterTail₀ cfgs (dats m) 0 (V0 m) [hostOps1] c main_v13
      = fun _ => (garr m c (ix2 1 0) + garr m c (ix2 9 0)) * Ideal.ofBits .f32 0x36000000#32 := by
  unfold Pipeline.afterTail₀
  show StableHlo.after hostOps1 _ (Proc.devRef .tc main_v13) = _
  after_results
  rw [tail_arr]
  exact host_chain (garr m c) 1 9 ![1, 0] ![9, 0] rfl rfl _ _

/-- THE RUN, READ: both results at the host's scalars of the array the run left, the arguments unchanged. -/
theorem run : θ_run defs (onTc (τ := τ) (main (F := Ideal))) ⟨m, fun _ => 0, ρ⟩ fun r => ∀ c : Dev nD,
      r.2.mem ((c.tc : Thread nD τ).loc main_v12) = (fun _ => (garr m c (ix2 0 0) + garr m c (ix2 8 0)) * Ideal.ofBits .f32 0x36000000#32)
      ∧ r.2.mem ((c.tc : Thread nD τ).loc main_v13) = (fun _ => (garr m c (ix2 1 0) + garr m c (ix2 9 0)) * Ideal.ofBits .f32 0x36000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h12 : main_v12 ∈ Pipeline.restRefs sig spec0 := Pipeline.mem_restRefs_of main_v12 (by decide) (by decide)
  have h13 : main_v13 ∈ Pipeline.restRefs sig spec0 := Pipeline.mem_restRefs_of main_v13 (by decide) (by decide)
  have ha1 : main_arg1 ∈ Pipeline.restRefs sig spec0 := Pipeline.mem_restRefs_of main_arg1 (by decide) (by decide)
  refine (θ_run defs _ _).mono (fun r h c => ?_) (run_main m ρ)
  have hc := h c
  refine ⟨(hc.2 main_v12 h12).trans (tail_v12 m c), (hc.2 main_v13 h13).trans (tail_v13 m c), ?_, ?_, ?_⟩
  · exact (hc.1 0).trans (((dats m 0 c).arrAt_in 0 rfl _).trans ((A_eq m c 0).trans (V_main_arg0 m c)))
  · exact (hc.2 main_arg1 ha1).trans (W_main_arg1 m (dats m) c)
  · exact (hc.1 2).trans (((dats m 0 c).arrAt_in 2 rfl _).trans ((A_eq m c 2).trans (V_main_arg2 m c)))

end Cert.KernelIdeal.Final

end
-- ==== Proof.SumSplit.lean ====
/-
  Two facts of arithmetic on the extended reals that join the two programs' totals: a sum over the 524288 rows is
  the sum over the 2 × 64 tiles of 4096 rows each, and the product with 2⁻¹⁹ is the quotient by 524288.
-/
import proofs.«422907_j61057255080333_3_alg».proof.Proof.Spec

noncomputable section

namespace Cert.TripletCenter

open Idealize.ShloMosaic

/-- Row `p` of tile `j` of core `i`. -/
abbrev rowOf (i : Fin 2) (j : Fin 64) (p : Fin 4096) : Fin 524288 :=
  ⟨(i.val * 64 + j.val) * 4096 + p.val, by have := i.isLt; have := j.isLt; have := p.isLt; omega⟩

/-- The rows, numbered by core, tile and place in the tile: the mixed-radix numbering, in two steps. -/
private def tileEquiv : (Fin 2 × Fin 64) × Fin 4096 ≃ Fin 524288 :=
  ((finProdFinEquiv (m := 2) (n := 64)).prodCongr (Equiv.refl (Fin 4096))).trans
    ((finProdFinEquiv (m := 2 * 64) (n := 4096)).trans (finCongr (by norm_num)))

/-- The numbering sends core `i`, tile `j`, place `p` to row `(i·64 + j)·4096 + p`. -/
private theorem tileEquiv_apply (i : Fin 2) (j : Fin 64) (p : Fin 4096) :
    tileEquiv ((i, j), p) = rowOf i j p := by
  apply Fin.ext
  simp only [tileEquiv, rowOf, Equiv.trans_apply, Equiv.prodCongr_apply, Prod.map_apply, Equiv.refl_apply,
    finProdFinEquiv_apply_val, finCongr_apply, Fin.val_cast]
  omega

/-- A sum over the rows, tile by tile. -/
theorem sum_rows_split (f : Fin 524288 → EReal) :
    ∑ r : Fin 524288, f r = ∑ i : Fin 2, ∑ j : Fin 64, ∑ p : Fin 4096, f (rowOf i j p) := by
  rw [← Equiv.sum_comp tileEquiv f, Fintype.sum_prod_type, Fintype.sum_prod_type]
  simp only [tileEquiv_apply]

/-- The f32 word 0x36000000 denotes 2⁻¹⁹, the reciprocal of 524288. -/
private theorem ofBits_scale : Ideal.ofBits .f32 0x36000000#32 = ((1 / 524288 : ℝ) : EReal) := by
  simp [Ideal.ofBits, Ideal.ieee, -EReal.coe_mul]; norm_num

/-- The f32 word 0x49000000 denotes 524288. -/
private theorem ofBits_nrows : Ideal.ofBits .f32 0x49000000#32 = ((524288 : ℝ) : EReal) := by
  simp [Ideal.ofBits, Ideal.ieee, -EReal.coe_mul]; norm_num

/-- The f32 word 0x36000000 is 2⁻¹⁹ and 0x49000000 is 524288: multiplying by the one is dividing by the other. -/
theorem scale_eq_div (s : EReal) : s * Ideal.ofBits .f32 0x36000000#32 = Ideal.div s nrows := by
  rw [ofBits_scale, show nrows = ((524288 : ℝ) : EReal) from ofBits_nrows,
    Ideal.div_coe (by norm_num : (524288 : ℝ) ≠ 0)]

end Cert.TripletCenter

end
-- ==== Proof.KResult.lean ====
/-
  The kernel's two results are the specification's means. The array entry (8q, 0) is core `q`'s sum over its 64 tiles
  of the tiles' loss sums, each the sum of the per-row losses of its 4096 rows; the two cores' entries together are
  the sum over all 524288 rows, and the product with 2⁻¹⁹ is the quotient by 524288. Likewise (8q + 1, 0) and the count.
-/
import proofs.«422907_j61057255080333_3_alg».proof.Proof.KFinal
import proofs.«422907_j61057255080333_3_alg».proof.Proof.KBlocks
import proofs.«422907_j61057255080333_3_alg».proof.Proof.SumSplit
import proofs.«422907_j61057255080333_3_alg».proof.Proof.Spec

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Accum Cert.KernelIdeal.Final Cert.KernelIdeal.Blocks
  Cert.KernelIdeal.RowValue Cert.TripletCenter

variable (m : (ℓ : Loc nD τ sig) → Buf (Elt Ideal) ℓ)

/-- The sum over tile `n`'s rows of a per-row quantity (nothing past the last tile). -/
def tileSum (f : Fin 524288 → EReal) (n : Nat) : EReal :=
  if h : n < 128 then ∑ p : Fin 4096, f (tileRow n h p) else 0

/-- What a point adds at entry (0,0) is its tile's sum of the per-row losses; at (1,0) the tile's count. -/
theorem addend_loss (c : Dev nD) (n : Nat) (y : S8x128.Idx) (hy0 : (y 0).val = 0) (hy1 : (y 1).val = 0) :
    addend m c n y = tileSum (lossAt (xarr m c) (tarr m c) (carr m c)) n := by
  have hN : cfg0.N = 128 := N_0
  unfold addend tileSum
  by_cases h : n < 128
  · rw [dif_pos (by rw [hN]; exact h), dif_pos h, if_neg (by omega), if_pos ⟨hy0, hy1⟩]
    exact tileLoss_blk m c ⟨n, by rw [hN]; exact h⟩ h
  · rw [dif_neg (by rw [hN]; exact h), dif_neg h]

theorem addend_prec (c : Dev nD) (n : Nat) (y : S8x128.Idx) (hy0 : (y 0).val = 1) (hy1 : (y 1).val = 0) :
    addend m c n y = tileSum (precAt (xarr m c) (tarr m c) (carr m c)) n := by
  have hN : cfg0.N = 128 := N_0
  unfold addend tileSum
  by_cases h : n < 128
  · rw [dif_pos (by rw [hN]; exact h), dif_pos h, if_pos ⟨hy0, hy1⟩]
    exact tilePrec_blk m c ⟨n, by rw [hN]; exact h⟩ h
  · rw [dif_neg (by rw [hN]; exact h), dif_neg h]

/-- A core's 64 tile sums are the sum over the core's rows. -/
theorem core_sum (f : Fin 524288 → EReal) (q : Fin 2) :
    ∑ s ∈ Finset.range 64, tileSum f (64 * q.val + s) = ∑ j : Fin 64, ∑ p : Fin 4096, f (rowOf q j p) := by
  rw [Finset.sum_range]
  refine Finset.sum_congr rfl fun j _ => ?_
  have hq := q.isLt
  have hj := j.isLt
  unfold tileSum
  rw [dif_pos (by omega)]
  refine Finset.sum_congr rfl fun p _ => congrArg f (Fin.ext ?_)
  show (64 * q.val + j.val) * 4096 + p.val = (q.val * 64 + j.val) * 4096 + p.val
  omega

/-- The two cores' sums are the sum over all the rows. -/
theorem two_cores (f : Fin 524288 → EReal) :
    (0 + ∑ s ∈ Finset.range 64, tileSum f (64 * 0 + s)) + (0 + ∑ s ∈ Finset.range 64, tileSum f (64 * 1 + s))
      = ∑ r : Fin 524288, f r := by
  rw [sum_rows_split f, Fin.sum_univ_two, zero_add, zero_add]
  exact congrArg₂ (· + ·) (core_sum f 0) (core_sum f 1)

/-- The first result is the mean loss. -/
theorem kernel_loss (c : Dev nD) :
    (garr m c (ix2 0 0) + garr m c (ix2 8 0)) * Ideal.ofBits .f32 0x36000000#32
      = lossMean (xarr m c) (tarr m c) (carr m c) := by
  rw [scale_eq_div]
  unfold lossMean
  refine congrArg (Ideal.div · nrows) ?_
  rw [← two_cores]
  unfold garr
  refine congrArg₂ (· + ·) (congrArg (0 + ·) (Finset.sum_congr rfl fun s _ => ?_)) (congrArg (0 + ·) (Finset.sum_congr rfl fun s _ => ?_))
  · exact addend_loss m c _ _ rfl rfl
  · exact addend_loss m c _ _ rfl rfl

/-- The second result is the mean precision. -/
theorem kernel_prec (c : Dev nD) :
    (garr m c (ix2 1 0) + garr m c (ix2 9 0)) * Ideal.ofBits .f32 0x36000000#32
      = precMean (xarr m c) (tarr m c) (carr m c) := by
  rw [scale_eq_div]
  unfold precMean
  refine congrArg (Ideal.div · nrows) ?_
  rw [← two_cores]
  unfold garr
  refine congrArg₂ (· + ·) (congrArg (0 + ·) (Finset.sum_congr rfl fun s _ => ?_)) (congrArg (0 + ·) (Finset.sum_congr rfl fun s _ => ?_))
  · exact addend_prec m c _ _ rfl rfl
  · exact addend_prec m c _ _ rfl rfl

end Cert.KernelIdeal.Result

end
-- ==== Proof.lean ====
/-
  The certificate that the fused triplet-center-loss kernel and its jnp reference compute the same two numbers over
  the extended reals, when every label is a class (0 ≤ label < 40) and the float inputs are finite.

  Both programs compute, for every row, the distances `dist j` to the 40 centers, the distance `ap` to the row's own
  center and the least distance `an` to another center, then the mean over the 524288 rows of `max (ap - an) 0` and
  of the indicator of `an > ap` (the specification: Proof/Spec.lean). They differ in how `ap` is read — the kernel
  sums the distances under the one-hot mask of the label, the reference gathers the label's entry, equal when the
  label is a class —, in the order of the sums — the kernel adds 4096 rows per grid point into a block carried over
  the 64 points of each of two cores, the host then adds the two cores' entries; the reference sums all rows at once:
  one sum on the extended reals, whose addition is commutative and associative — and in the last step, a product
  with the f32 constant 2⁻¹⁹ against a quotient by 524288, one value on every extended real.

  The kernel's side: Proof/KRow.lean (the body's arithmetic on one tile, read at an index), Proof/KPieces.lean (what
  each case of the body leaves in the output block), Proof/KBlocks.lean (the blocks the windows read are rows of the
  arguments), Proof/KAccum.lean (the block point by point: the fold over a core's run), Proof/KFinal.lean and
  Proof/KTail.lean (the result array and the host's two scalars), Proof/KResult.lean (these are the means). The
  reference's side: Proof/RefRow.lean over the reference's run and its stages. Proof/PreRange.lean reads the labels'
  range out of the precondition, Proof/SumSplit.lean holds the two facts of arithmetic that join the totals.
  No ideal rule rewrote the kernel, so `preserves` is `True`.
-/
import proofs.«422907_j61057255080333_3_alg».proof.Defs
import proofs.«422907_j61057255080333_3_alg».proof.Proof.Gen.Kernel
import proofs.«422907_j61057255080333_3_alg».proof.Proof.Gen.Kernel.Skeleton
import proofs.«422907_j61057255080333_3_alg».proof.Proof.Gen.Kernel.Launch
import proofs.«422907_j61057255080333_3_alg».proof.Proof.Gen.Kernel.Points
import proofs.«422907_j61057255080333_3_alg».proof.Proof.Gen.Kernel.Frame
import proofs.«422907_j61057255080333_3_alg».proof.Proof.Gen.KernelIdeal
import proofs.«422907_j61057255080333_3_alg».proof.Proof.Gen.KernelIdeal.Skeleton
import proofs.«422907_j61057255080333_3_alg».proof.Proof.Gen.KernelIdeal.Launch
import proofs.«422907_j61057255080333_3_alg».proof.Proof.Gen.KernelIdeal.Points
import proofs.«422907_j61057255080333_3_alg».proof.Proof.Gen.KernelIdeal.Frame
import proofs.«422907_j61057255080333_3_alg».proof.Proof.Gen.ReferenceIdeal
import proofs.«422907_j61057255080333_3_alg».proof.Proof.Gen.Pre_finite_inputs
import proofs.«422907_j61057255080333_3_alg».proof.Proof.RefRun
import proofs.«422907_j61057255080333_3_alg».proof.Proof.RefRead
import proofs.«422907_j61057255080333_3_alg».proof.Proof.RefRow
import proofs.«422907_j61057255080333_3_alg».proof.Proof.PreRange
import proofs.«422907_j61057255080333_3_alg».proof.Proof.KTail
import proofs.«422907_j61057255080333_3_alg».proof.Proof.KResult
import Idealize.ShloMosaic.Adequacy
import Idealize.ShloMosaic.Init

noncomputable section

namespace Cert.Proof

open Idealize.ShloMosaic Idealize.SL.Sem Cert.TripletCenter

/-- The word-level kernel and its idealization run, fault-free, arguments unchanged: the generated frames. -/
theorem frame_k : Cert.frame_Kernel := fun m ρ _ => Cert.Kernel.Gen.frame m ρ
theorem frame_ki : Cert.frame_KernelIdeal := fun m ρ _ => Cert.KernelIdeal.Gen.frame m ρ

/-- The reference runs: its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the mean loss and the mean precision of the agreed arguments. -/
theorem algebraic : Cert.algebraic_KernelIdeal_ReferenceIdeal := by
  intro m ρ m' ρ' hpre hagree
  refine ⟨fun c _ => lossMean (Cert.KernelIdeal.Blocks.xarr m c) (Cert.KernelIdeal.Blocks.tarr m c) (Cert.KernelIdeal.Blocks.carr m c),
    fun c _ => precMean (Cert.KernelIdeal.Blocks.xarr m c) (Cert.KernelIdeal.Blocks.tarr m c) (Cert.KernelIdeal.Blocks.carr m c), ?_, ?_⟩
  · exact (θ_run Cert.KernelIdeal.defs _ _).mono
      (fun _ h c => ⟨(h c).1.trans (funext fun _ => Cert.KernelIdeal.Result.kernel_loss m c),
        (h c).2.1.trans (funext fun _ => Cert.KernelIdeal.Result.kernel_prec m c), (h c).2.2⟩)
      (Cert.KernelIdeal.Final.run m ρ)
  · have hr : ∀ c : Dev Cert.KernelIdeal.nD, LabelsInRange (m' ((c.tc : Thread Cert.ReferenceIdeal.nD Cert.ReferenceIdeal.τ).loc Cert.ReferenceIdeal.main_arg1)) := fun c => by
      rw [(hagree c).2.1]
      exact labels_of_pre _ _ _ (hpre c)
    refine (θ_run Cert.ReferenceIdeal.defs _ _).mono (fun _ h c => ⟨?_, ?_, (h c).2.2⟩)
      (Cert.ReferenceIdeal.ValueP.run (F := Ideal) m' ρ')
    · rw [(h c).1, Cert.ReferenceIdeal.ReadP.val_main_v27_eq, Cert.ReferenceIdeal.RowValue.ref_loss _ _ _ (hr c),
        (hagree c).1, (hagree c).2.1, (hagree c).2.2]
      rfl
    · rw [(h c).2.1, Cert.ReferenceIdeal.ReadP.val_main_v31_eq, Cert.ReferenceIdeal.RowValue.ref_prec _ _ _ (hr c),
        (hagree c).1, (hagree c).2.1, (hagree c).2.2]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
